-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x200 : Shape := ⟨2, ![64, 200]⟩
abbrev S50000x300 : Shape := ⟨2, ![50000, 300]⟩
abbrev S128x50000 : Shape := ⟨2, ![128, 50000]⟩
abbrev S128 : Shape := ⟨1, ![128]⟩
abbrev S_ : Shape := ⟨0, ![]⟩

class Facts : Prop where
  bcast_S_S50000x300 : S_.BroadcastsInDim S50000x300 (![] : Fin 0 → Fin S50000x300.rank)
  reducesTo_S50000x300_S_d0_1 : S50000x300.ReducesTo [0, 1] S_
  h_S_ : 0 < S_.numel
  bcast_S_S128x50000 : S_.BroadcastsInDim S128x50000 (![] : Fin 0 → Fin S128x50000.rank)
  reducesTo_S128x50000_S_d0_1 : S128x50000.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : IVec S64x200 32) (main_arg1 : FVec F S50000x300 .f32) (main_arg2 : FVec F S128x50000 .f32) (main_arg3 : FVec F S128 .f32) : IVec S_ 1 :=
  let main_v0 : FVec F S50000x300 .f32 := Host.absf main_arg1
  let main_cst : FVec F S_ .f32 := constant S_ .f32 0x7F800000#32
  let main_v1 : FVec F S50000x300 .f32 := broadcastInDim S50000x300 ![] bcast_S_S50000x300 main_cst
  let main_v2 : IVec S50000x300 1 := cmpf .olt main_v0 main_v1
  let main_c : IVec S_ 1 := constantI S_ 1 1#1
  let main_v3 : IVec S_ 1 := (fun x v => Host.reduce IntOp.andi x v reducesTo_S50000x300_S_d0_1 h_S_) main_v2 main_c
  let main_v4 : FVec F S128x50000 .f32 := Host.absf main_arg2
  let main_cst_0 : FVec F S_ .f32 := constant S_ .f32 0x7F800000#32
  let main_v5 : FVec F S128x50000 .f32 := broadcastInDim S128x50000 ![] bcast_S_S128x50000 main_cst_0
  let main_v6 : IVec S128x50000 1 := cmpf .olt main_v4 main_v5
  let main_c_1 : IVec S_ 1 := constantI S_ 1 1#1
  let main_v7 : IVec S_ 1 := (fun x v => Host.reduce IntOp.andi x v reducesTo_S128x50000_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S64x200 : Shape := ⟨2, ![64, 200]⟩
abbrev S50000x300 : Shape := ⟨2, ![50000, 300]⟩
abbrev S128x50000 : Shape := ⟨2, ![128, 50000]⟩
abbrev S128 : Shape := ⟨1, ![128]⟩
abbrev S12800 : Shape := ⟨1, ![12800]⟩
abbrev S50000x128 : Shape := ⟨2, ![50000, 128]⟩
abbrev S50000x1x300 : Shape := ⟨3, ![50000, 1, 300]⟩
abbrev S50000x1x128 : Shape := ⟨3, ![50000, 1, 128]⟩
abbrev S1x1x128 : Shape := ⟨3, ![1, 1, 128]⟩
abbrev S12800x1x300 : Shape := ⟨3, ![12800, 1, 300]⟩
abbrev S12800x1x128 : Shape := ⟨3, ![12800, 1, 128]⟩
abbrev S1x1x300 : Shape := ⟨3, ![1, 1, 300]⟩
abbrev S1 : Shape := ⟨1, ![1]⟩
abbrev S64x200x300 : Shape := ⟨3, ![64, 200, 300]⟩
abbrev S64x200x128 : Shape := ⟨3, ![64, 200, 128]⟩
abbrev S64x200x428 : Shape := ⟨3, ![64, 200, 428]⟩

abbrev nBuf : Space → Nat
  | .hbm => 13
  | .vmem => 9
  | .smem => 1
  | _ => 0

abbrev bufTy : (tb : Table) → Fin (tcTables nBuf tb) → BufTy
  | .hbm, ⟨0, _⟩ => ⟨S64x200, .i32⟩
  | .hbm, ⟨1, _⟩ => ⟨S50000x300, .f32⟩
  | .hbm, ⟨2, _⟩ => ⟨S128x50000, .f32⟩
  | .hbm, ⟨3, _⟩ => ⟨S128, .f32⟩
  | .hbm, ⟨4, _⟩ => ⟨S50000x128, .f32⟩
  | .hbm, ⟨5, _⟩ => ⟨S50000x1x300, .f32⟩
  | .hbm, ⟨6, _⟩ => ⟨S50000x1x128, .f32⟩
  | .hbm, ⟨7, _⟩ => ⟨S1x1x128, .f32⟩
  | .hbm, ⟨8, _⟩ => ⟨S12800x1x300, .f32⟩
  | .hbm, ⟨9, _⟩ => ⟨S12800x1x128, .f32⟩
  | .hbm, ⟨10, _⟩ => ⟨S64x200x300, .f32⟩
  | .hbm, ⟨11, _⟩ => ⟨S64x200x128, .f32⟩
  | .hbm, ⟨12, _⟩ => ⟨S64x200x428, .f32⟩
  | .local _ .vmem, ⟨0, _⟩ => ⟨S1x1x300, .f32⟩
  | .local _ .vmem, ⟨1, _⟩ => ⟨S1x1x300, .f32⟩
  | .local _ .vmem, ⟨2, _⟩ => ⟨S1x1x128, .f32⟩
  | .local _ .vmem, ⟨3, _⟩ => ⟨S1x1x128, .f32⟩
  | .local _ .vmem, ⟨4, _⟩ => ⟨S1x1x128, .f32⟩
  | .local _ .vmem, ⟨5, _⟩ => ⟨S1x1x300, .f32⟩
  | .local _ .vmem, ⟨6, _⟩ => ⟨S1x1x300, .f32⟩
  | .local _ .vmem, ⟨7, _⟩ => ⟨S1x1x128, .f32⟩
  | .local _ .vmem, ⟨8, _⟩ => ⟨S1x1x128, .f32⟩
  | .local _ .smem, ⟨0, _⟩ => ⟨S12800, .i32⟩
  | _, _ => ⟨S64x200, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![12800], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S12800.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S12800) ![v0.toNat] S1.size (k0_off1_inb i)) numel1_S1
  let c49999_i32 : BitVec 32 := 49999#32
  let v2 : BitVec 32 := Scalar.minsi v1 c49999_i32
  let c0_i32 : BitVec 32 := 0#32
  let v3 : BitVec 32 := Scalar.maxsi v2 c0_i32
  let c0_i32_0 : BitVec 32 := 0#32
  let c0_i32_1 : BitVec 32 := 0#32
  let c0_i32_2 : BitVec 32 := 0#32
  ![v3.toNat, c0_i32_0.toNat, c0_i32_1.toNat]

def cc0_transform_1 (k0_off1_inb : ∀ i : grid0.Coords, ∀ a, (k0_off1 i) a + S1.size a ≤ S12800.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S12800) ![v0.toNat] S1.size (k0_off1_inb i)) numel1_S1
  let c50000_i32 : BitVec 32 := 50000#32
  let v2 : BitVec 32 := Scalar.subi v1 c50000_i32
  let c49999_i32 : BitVec 32 := 49999#32
  let v3 : BitVec 32 := Scalar.minsi v2 c49999_i32
  let c0_i32 : BitVec 32 := 0#32
  let v4 : BitVec 32 := Scalar.maxsi v3 c0_i32
  let c0_i32_0 : BitVec 32 := 0#32
  let c0_i32_1 : BitVec 32 := 0#32
  let c0_i32_2 : BitVec 32 := 0#32
  ![v4.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x300 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S64x200_S12800 : S64x200.ShapeCasts S12800
  transposes_S128x50000_S50000x128_1_0 : S128x50000.Transposes [1, 0] S50000x128
  shapeCasts_S50000x300_S50000x1x300 : S50000x300.ShapeCasts S50000x1x300
  shapeCasts_S50000x128_S50000x1x128 : S50000x128.ShapeCasts S50000x1x128
  shapeCasts_S128_S1x1x128 : S128.ShapeCasts S1x1x128
  numel1_S1 : S1.numel = 1
  inb_S1x1x300_S1x1x300_0_0_0 : ∀ a, (![0, 0, 0] : Fin 3 → Nat) a + S1x1x300.size a ≤ S1x1x300.size a
  h_S1x1x300 : 0 < S1x1x300.numel
  shapeCasts_S1x1x300_S1x1x300 : S1x1x300.ShapeCasts S1x1x300
  inb_S1x1x128_S1x1x128_0_0_0 : ∀ a, (![0, 0, 0] : Fin 3 → Nat) a + S1x1x128.size a ≤ S1x1x128.size a
  h_S1x1x128 : 0 < S1x1x128.numel
  shapeCasts_S1x1x128_S1x1x128 : S1x1x128.ShapeCasts S1x1x128
  shapeCasts_S12800x1x300_S64x200x300 : S12800x1x300.ShapeCasts S64x200x300
  shapeCasts_S12800x1x128_S64x200x128 : S12800x1x128.ShapeCasts S64x200x128
  concatenates_S64x200x300_S64x200x128_S64x200x428_d2 : Shape.Concatenates [S64x200x300, S64x200x128] S64x200x428 2
  hrank0 : 0 < grid0.rank
  k0_off1_inb : ∀ i : grid0.Coords, ∀ a, (k0_off1 i) a + S1.size a ≤ S12800.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S1x1x128.size a
  hwx0_2 : ∀ i : grid0.Coords, EltTy.bits .f32 = 32 ∨ (Rect.block (s := S1x1x128) S1x1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x300.size a ≤ S12800x1x300.size a
  hwx0_3 : ∀ i : grid0.Coords, EltTy.bits .f32 = 32 ∨ (Rect.block (s := S12800x1x300) S1x1x300.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S12800x1x128.size a
  hwx0_4 : ∀ i : grid0.Coords, EltTy.bits .f32 = 32 ∨ (Rect.block (s := S12800x1x128) S1x1x128.size (cc0_transform_4 i) (hinb0_4 i)).WholeWords (EltTy.packing .f32)

variable [Facts₀]

abbrev spec0_0 : Pipeline.WinSpec sig grid0.rank :=
  Pipeline.WinSpec.ofSpec (Memref.whole main_v2) S1x1x300.size reads0_0 false false 2 stage0_0 sem0_0 nbuf0_0 hstage0_0

abbrev spec0_1 : Pipeline.WinSpec sig grid0.rank :=
  Pipeline.WinSpec.ofSpec (Memref.whole main_v3) S1x1x128.size reads0_1 false false 2 stage0_1 sem0_1 nbuf0_1 hstage0_1

abbrev spec0_2 : Pipeline.WinSpec sig grid0.rank :=
  Pipeline.WinSpec.ofSpec (Memref.whole main_v4) S1x1x128.size reads0_2 false true 1 stage0_2 sem0_2 nbuf0_2 hstage0_2

abbrev spec0_3 : Pipeline.WinSpec sig grid0.rank :=
  Pipeline.WinSpec.ofSpec (Memref.whole main_v5_0) S1x1x300.size reads0_3 true false 2 stage0_3 sem0_3 nbuf0_3 hstage0_3

abbrev spec0_4 : Pipeline.WinSpec sig grid0.rank :=
  Pipeline.WinSpec.ofSpec (Memref.whole main_v5_1) S1x1x128.size reads0_4 true false 2 stage0_4 sem0_4 nbuf0_4 hstage0_4

abbrev spec0 : Fin 5 → Pipeline.WinSpec sig grid0.rank := fun | 0 => spec0_0 | 1 => spec0_1 | 2 => spec0_2 | 3 => spec0_3 | 4 => spec0_4 | ⟨_ + 5, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | ⟨_ + 5, h⟩ => absurd h (Nat.not_lt.2 (Nat.le_add_left _ _))
abbrev ix0 (pf : pre0.Contents (Elt F)) : (w : Fin 5) → grid0.Coords → Fin (spec0 w).shape.rank → Nat := fun | 0 => cc0_transform_0 k0_off1_inb numel1_S1 pf | 1 => cc0_transform_1 k0_off1_inb numel1_S1 pf | 2 => cc0_transform_2 | 3 => cc0_transform_3 | 4 => cc0_transform_4 | ⟨_ + 5, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 pf | 2 => hreads0_2 | 3 => hreads0_3 | 4 => hreads0_4 | ⟨_ + 5, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x1x300.size a ≤ S50000x1x300.size a), EltTy.bits .f32 = 32 ∨ (Rect.block (s := S50000x1x300) S1x1x300.size (cc0_transform_0 k0_off1_inb numel1_S1 pf i) h).WholeWords (EltTy.packing .f32)) ∧
  (∀ i : grid0.Coords, ∃ h : (∀ a, (cc0_transform_1 k0_off1_inb numel1_S1 pf i a + 1) * S1x1x128.size a ≤ S50000x1x128.size a), EltTy.bits .f32 = 32 ∨ (Rect.block (s := S50000x1x128) S1x1x128.size (cc0_transform_1 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => fun i a => (hok.2 i).elim fun h _ => h a | 2 => hinb0_2 | 3 => hinb0_3 | 4 => hinb0_4 | ⟨_ + 5, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => fun i => (hok.2 i).elim fun _ h => h | 2 => hwx0_2 | 3 => hwx0_3 | 4 => hwx0_4 | ⟨_ + 5, h⟩ => absurd h (Nat.not_lt.2 (Nat.le_add_left _ _))

class Facts : Prop extends Facts₀ where
  harr0 : ∀ w, (spec0 w).arr.IsWhole

variable [Facts]
-- ==== ReferenceIdeal.lean ====
abbrev S64x200 : Shape := ⟨2, ![64, 200]⟩
abbrev S50000x300 : Shape := ⟨2, ![50000, 300]⟩
abbrev S128x50000 : Shape := ⟨2, ![128, 50000]⟩
abbrev S128 : Shape := ⟨1, ![128]⟩
abbrev S_ : Shape := ⟨0, ![]⟩
abbrev S64x200x1 : Shape := ⟨3, ![64, 200, 1]⟩
abbrev S64x200x300 : Shape := ⟨3, ![64, 200, 300]⟩
abbrev S50000x128 : Shape := ⟨2, ![50000, 128]⟩
abbrev S64x200x128 : Shape := ⟨3, ![64, 200, 128]⟩
abbrev S1x1x128 : Shape := ⟨3, ![1, 1, 128]⟩
abbrev S64x200x428 : Shape := ⟨3, ![64, 200, 428]⟩

abbrev nBuf : Space → Nat
  | .hbm => 61
  | .vmem => 0
  | .smem => 0
  | _ => 0

abbrev bufTy : (tb : Table) → Fin (tcTables nBuf tb) → BufTy
  | .hbm, ⟨0, _⟩ => ⟨S64x200, .i32⟩
  | .hbm, ⟨1, _⟩ => ⟨S50000x300, .f32⟩
  | .hbm, ⟨2, _⟩ => ⟨S128x50000, .f32⟩
  | .hbm, ⟨3, _⟩ => ⟨S128, .f32⟩
  | .hbm, ⟨4, _⟩ => ⟨S_, .i32⟩
  | .hbm, ⟨5, _⟩ => ⟨S64x200, .i32⟩
  | .hbm, ⟨6, _⟩ => ⟨S64x200, .i1⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S64x200, .i32⟩
  | .hbm, ⟨11, _⟩ => ⟨S64x200, .i32⟩
  | .hbm, ⟨12, _⟩ => ⟨S_, .i32⟩
  | .hbm, ⟨13, _⟩ => ⟨S64x200, .i32⟩
  | .hbm, ⟨14, _⟩ => ⟨S64x200, .i32⟩
  | .hbm, ⟨15, _⟩ => ⟨S64x200x1, .i1⟩
  | .hbm, ⟨16, _⟩ => ⟨S_, .i32⟩
  | .hbm, ⟨17, _⟩ => ⟨S64x200, .i32⟩
  | .hbm, ⟨18, _⟩ => ⟨S64x200, .i1⟩
  | .hbm, ⟨19, _⟩ => ⟨S_, .i32⟩
  | .hbm, ⟨20, _⟩ => ⟨S64x200, .i32⟩
  | .hbm, ⟨21, _⟩ => ⟨S64x200, .i32⟩
  | .hbm, ⟨22, _⟩ => ⟨S64x200, .i32⟩
  | .hbm, ⟨23, _⟩ => ⟨S64x200x1, .i32⟩
  | .hbm, ⟨24, _⟩ => ⟨S64x200x300, .f32⟩
  | .hbm, ⟨25, _⟩ => ⟨S_, .f32⟩
  | .hbm, ⟨26, _⟩ => ⟨S_, .f32⟩
  | .hbm, ⟨27, _⟩ => ⟨S64x200x300, .i1⟩
  | .hbm, ⟨28, _⟩ => ⟨S64x200x300, .f32⟩
  | .hbm, ⟨29, _⟩ => ⟨S64x200x300, .f32⟩
  | .hbm, ⟨30, _⟩ => ⟨S_, .i32⟩
  | .hbm, ⟨31, _⟩ => ⟨S64x200, .i32⟩
  | .hbm, ⟨32, _⟩ => ⟨S64x200, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S64x200, .i32⟩
  | .hbm, ⟨37, _⟩ => ⟨S64x200, .i32⟩
  | .hbm, ⟨38, _⟩ => ⟨S_, .i32⟩
  | .hbm, ⟨39, _⟩ => ⟨S64x200, .i32⟩
  | .hbm, ⟨40, _⟩ => ⟨S64x200, .i32⟩
  | .hbm, ⟨41, _⟩ => ⟨S64x200x1, .i1⟩
  | .hbm, ⟨42, _⟩ => ⟨S50000x128, .f32⟩
  | .hbm, ⟨43, _⟩ => ⟨S_, .i32⟩
  | .hbm, ⟨44, _⟩ => ⟨S64x200, .i32⟩
  | .hbm, ⟨45, _⟩ => ⟨S64x200, .i1⟩
  | .hbm, ⟨46, _⟩ => ⟨S_, .i32⟩
  | .hbm, ⟨47, _⟩ => ⟨S64x200, .i32⟩
  | .hbm, ⟨48, _⟩ => ⟨S64x200, .i32⟩
  | .hbm, ⟨49, _⟩ => ⟨S64x200, .i32⟩
  | .hbm, ⟨50, _⟩ => ⟨S64x200x1, .i32⟩
  | .hbm, ⟨51, _⟩ => ⟨S64x200x128, .f32⟩
  | .hbm, ⟨52, _⟩ => ⟨S_, .f32⟩
  | .hbm, ⟨53, _⟩ => ⟨S_, .f32⟩
  | .hbm, ⟨54, _⟩ => ⟨S64x200x128, .i1⟩
  | .hbm, ⟨55, _⟩ => ⟨S64x200x128, .f32⟩
  | .hbm, ⟨56, _⟩ => ⟨S64x200x128, .f32⟩
  | .hbm, ⟨57, _⟩ => ⟨S1x1x128, .f32⟩
  | .hbm, ⟨58, _⟩ => ⟨S64x200x128, .f32⟩
  | .hbm, ⟨59, _⟩ => ⟨S64x200x128, .f32⟩
  | .hbm, ⟨60, _⟩ => ⟨S64x200x428, .f32⟩
  | _, _ => ⟨S64x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_c_1 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v2 : Ref sig .tc := ⟨.hbm, 14, rfl⟩
abbrev main_v3 : Ref sig .tc := ⟨.hbm, 15, rfl⟩
abbrev main_c_2 : Ref sig .tc := ⟨.hbm, 16, rfl⟩
abbrev main_v4 : Ref sig .tc := ⟨.hbm, 17, rfl⟩
abbrev main_v5 : Ref sig .tc := ⟨.hbm, 18, rfl⟩
abbrev main_c_3 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v11 : Ref sig .tc := ⟨.hbm, 29, rfl⟩
abbrev main_c_4 : Ref sig .tc := ⟨.hbm, 30, rfl⟩
abbrev main_v12 : Ref sig .tc := ⟨.hbm, 31, rfl⟩
abbrev main_v13 : Ref sig .tc := ⟨.hbm, 32, rfl⟩
abbrev main_c_5 : Ref sig .tc := ⟨.hbm, 33, rfl⟩
abbrev main_c_6 : Ref sig .tc := ⟨.hbm, 34, rfl⟩
abbrev main_call2_v0 : Ref sig .tc := ⟨.hbm, 35, rfl⟩
abbrev main_call2_v1 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_c_7 : Ref sig .tc := ⟨.hbm, 43, rfl⟩
abbrev main_v17 : Ref sig .tc := ⟨.hbm, 44, rfl⟩
abbrev main_v18 : Ref sig .tc := ⟨.hbm, 45, rfl⟩
abbrev main_c_8 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_cst_9 : Ref sig .tc := ⟨.hbm, 52, rfl⟩
abbrev main_call3_v0 : Ref sig .tc := ⟨.hbm, 53, rfl⟩
abbrev main_call3_v1 : Ref sig .tc := ⟨.hbm, 54, rfl⟩
abbrev main_call3_v2 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩

abbrev nD : Nat := 1
abbrev τ : Topo := Topo.v7x

variable {F : FTy → Type} [FloatOps F]

class Facts₀ : Prop where
  bcast_S_S64x200 : S_.BroadcastsInDim S64x200 (![] : Fin 0 → Fin S64x200.rank)
  bcast_S64x200_S64x200x1_0_1 : S64x200.BroadcastsInDim S64x200x1 (![0, 1] : Fin 2 → Fin S64x200x1.rank)
  bcast_S64x200x1_S64x200x300_0_1_2 : S64x200x1.BroadcastsInDim S64x200x300 (![0, 1, 2] : Fin 3 → Fin S64x200x300.rank)
  bcast_S_S64x200x300 : S_.BroadcastsInDim S64x200x300 (![] : Fin 0 → Fin S64x200x300.rank)
  transposes_S128x50000_S50000x128_1_0 : S128x50000.Transposes [1, 0] S50000x128
  bcast_S64x200x1_S64x200x128_0_1_2 : S64x200x1.BroadcastsInDim S64x200x128 (![0, 1, 2] : Fin 3 → Fin S64x200x128.rank)
  bcast_S_S64x200x128 : S_.BroadcastsInDim S64x200x128 (![] : Fin 0 → Fin S64x200x128.rank)
  bcast_S128_S1x1x128_2 : S128.BroadcastsInDim S1x1x128 (![2] : Fin 1 → Fin S1x1x128.rank)
  bcast_S1x1x128_S64x200x128_0_1_2 : S1x1x128.BroadcastsInDim S64x200x128 (![0, 1, 2] : Fin 3 → Fin S64x200x128.rank)
  concatenates_S64x200x300_S64x200x128_S64x200x428_d2 : Shape.Concatenates [S64x200x300, S64x200x128] S64x200x428 2
  gather_S50000x300_S64x200x1_S64x200x300_2_0_n_n_0_2_1300_wf : GatherDims.WF S50000x300 S64x200x1 S64x200x300 [2] [0] [] [0] [] 2 ![1, 300]
  gather_S50000x128_S64x200x1_S64x200x128_2_0_n_n_0_2_1128_wf : GatherDims.WF S50000x128 S64x200x1 S64x200x128 [2] [0] [] [0] [] 2 ![1, 128]

variable [Facts₀]

def gather_S50000x300_S64x200x1_S64x200x300_2_0_n_n_0_2_1300 : GatherDims S50000x300 S64x200x1 S64x200x300 where
  offsetDims := [2]
  collapsedSliceDims := [0]
  operandBatchingDims := []
  startIndicesBatchingDims := []
  startIndexMap := [0]
  indexVectorDim := 2
  sliceSizes := ![1, 300]
  wf := gather_S50000x300_S64x200x1_S64x200x300_2_0_n_n_0_2_1300_wf
def gather_S50000x128_S64x200x1_S64x200x128_2_0_n_n_0_2_1128 : GatherDims S50000x128 S64x200x1 S64x200x128 where
  offsetDims := [2]
  collapsedSliceDims := [0]
  operandBatchingDims := []
  startIndicesBatchingDims := []
  startIndexMap := [0]
  indexVectorDim := 2
  sliceSizes := ![1, 128]
  wf := gather_S50000x128_S64x200x1_S64x200x128_2_0_n_n_0_2_1128_wf

class Facts : Prop extends Facts₀ where

variable [Facts]
-- ==== Proof.LibClamp.lean ====
/-
  Signed clamping of a 32-bit word into [0, hi], for 0 ≤ hi: the two orders of clamping agree
  (max (min x hi) 0 = min hi (max 0 x)), the clamped word is nonnegative and at most hi, so it is never
  "negative" for an index normalisation (a select on x < 0 keeps it), its signed and unsigned readings agree,
  and a further clamp into [0, N − 1] with hi ≤ N − 1 changes nothing.
-/
import Idealize.ShloMosaic.PureOps

namespace Cert.LibClamp

open Idealize.ShloMosaic

/-- The word clamped from above by `hi`, then from below by zero (signed). -/
def clamp (hi x : BitVec 32) : BitVec 32 := IntOp.maxsi (IntOp.minsi x hi) 0#32

theorem toInt_zero32 : (0#32 : BitVec 32).toInt = 0 := by decide

/-- Clamping from below first and from above second gives the same word. -/
theorem min_max_eq_clamp (hi x : BitVec 32) (h : 0 ≤ hi.toInt) :
    IntOp.minsi hi (IntOp.maxsi 0#32 x) = clamp hi x := by
  have h0 := toInt_zero32
  unfold clamp IntOp.minsi IntOp.maxsi
  simp only [BitVec.slt, decide_eq_true_eq]
  split_ifs <;> first | rfl | (apply BitVec.eq_of_toInt_eq; omega) | (exfalso; omega)

/-- The clamped word lies in [0, hi], signed. -/
theorem clamp_toInt (hi x : BitVec 32) (h : 0 ≤ hi.toInt) : 0 ≤ (clamp hi x).toInt ∧ (clamp hi x).toInt ≤ hi.toInt := by
  have h0 := toInt_zero32
  unfold clamp IntOp.minsi IntOp.maxsi
  simp only [BitVec.slt, decide_eq_true_eq]
  split_ifs <;> omega

/-- A word that is nonnegative signed reads the same unsigned. -/
theorem toInt_eq_toNat (c : BitVec 32) (h : 0 ≤ c.toInt) : c.toInt = (c.toNat : Int) := by
  have := c.isLt
  unfold BitVec.toInt at h ⊢
  split at h <;> simp_all <;> omega

/-- The clamped word, unsigned, is at most `hi`. -/
theorem clamp_toNat_le (hi x : BitVec 32) (h : 0 ≤ hi.toInt) : (clamp hi x).toNat ≤ hi.toNat := by
  obtain ⟨h1, h2⟩ := clamp_toInt hi x h
  have e1 := toInt_eq_toNat _ h1
  have e2 := toInt_eq_toNat _ h
  omega

/-- The signed reading of the clamped word, as a natural number, is its unsigned reading. -/
theorem clamp_toInt_toNat (hi x : BitVec 32) (h : 0 ≤ hi.toInt) : (clamp hi x).toInt.toNat = (clamp hi x).toNat := by
  rw [toInt_eq_toNat _ (clamp_toInt hi x h).1]; rfl

/-- The clamped word is not below zero: a comparison `< 0` is the bit 0. -/
theorem clamp_not_neg (hi x : BitVec 32) (h : 0 ≤ hi.toInt) : IntOp.cmpi .slt (clamp hi x) 0#32 = 0#1 := by
  have h0 := toInt_zero32
  have := (clamp_toInt hi x h).1
  unfold IntOp.cmpi
  have : (clamp hi x).slt 0#32 = false := by
    simp only [BitVec.slt, decide_eq_false_iff_not]; omega
  simp [this]

end Cert.LibClamp
-- ==== Proof.KernelOk.lean ====
/-
  The side condition of the prefetched token table holds for EVERY contents of the table: the two index maps that
  read a token clamp it (max (min tok 49999) 0, and the same of tok − 50000) before they use it as a row, so row + 1
  never exceeds the 50000 rows of either gathered table, and the other two block coordinates are 0 on axes the block
  spans whole.  Nothing is asked of the precondition.
-/
import proofs.«412382_j64879775973480_3_alg».proof.Kernel
import proofs.«412382_j64879775973480_3_alg».proof.Proof.Gen.Kernel
import proofs.«412382_j64879775973480_3_alg».proof.Proof.LibClamp

noncomputable section

namespace Cert.Kernel.TableOk

open Cert.Kernel Cert.Kernel.Facts₀ Cert.Kernel.Facts
open Idealize.ShloMosaic Idealize.SL.Sem
open Cert.LibClamp (clamp clamp_toNat_le)

variable {F : FTy → Type} [FloatOps F] [Cert.Kernel.Facts]

theorem hi_nonneg : 0 ≤ (49999#32 : BitVec 32).toInt := by decide
theorem hi_toNat : (49999#32 : BitVec 32).toNat = 49999 := by decide

/-- Window 0's block index: the clamped token on the row axis, 0 on the other two. -/
theorem transform_0_eq (pf : pre0.Contents (Elt F)) (i : grid0.Coords) :
    ∃ w : BitVec 32, cc0_transform_0 k0_off1_inb numel1_S1 pf i = ![(clamp 49999#32 w).toNat, 0, 0] := ⟨_, rfl⟩

/-- Window 1's block index: the clamped (token − 50000) on the row axis, 0 on the other two. -/
theorem transform_1_eq (pf : pre0.Contents (Elt F)) (i : grid0.Coords) :
    ∃ w : BitVec 32, cc0_transform_1 k0_off1_inb numel1_S1 pf i = ![(clamp 49999#32 w).toNat, 0, 0] := ⟨_, rfl⟩

/-- Every table-indexed block lies inside its array, whatever the table holds. -/
theorem ok_any (pf : pre0.Contents (Elt F)) : ok0 (F := F) pf := by
  refine ⟨fun i => ⟨fun a => ?_, Or.inl rfl⟩, fun i => ⟨fun a => ?_, Or.inl rfl⟩⟩
  · obtain ⟨w, e⟩ := transform_0_eq pf i
    rw [e]
    have := clamp_toNat_le 49999#32 w hi_nonneg
    rw [hi_toNat] at this
    fin_cases a <;> simp [S1x1x300, S50000x1x300] <;> omega
  · obtain ⟨w, e⟩ := transform_1_eq pf i
    rw [e]
    have := clamp_toNat_le 49999#32 w hi_nonneg
    rw [hi_toNat] at this
    fin_cases a <;> simp [S1x1x128, S50000x1x128] <;> omega

end Cert.Kernel.TableOk

end
-- ==== Proof.KernelIdealOk.lean ====
/-
  The side condition of the prefetched token table holds for EVERY contents of the table: the two index maps that
  read a token clamp it (max (min tok 49999) 0, and the same of tok − 50000) before they use it as a row, so row + 1
  never exceeds the 50000 rows of either gathered table, and the other two block coordinates are 0 on axes the block
  spans whole.  Nothing is asked of the precondition.
-/
import proofs.«412382_j64879775973480_3_alg».proof.KernelIdeal
import proofs.«412382_j64879775973480_3_alg».proof.Proof.Gen.KernelIdeal
import proofs.«412382_j64879775973480_3_alg».proof.Proof.LibClamp

noncomputable section

namespace Cert.KernelIdeal.TableOk

open Cert.KernelIdeal Cert.KernelIdeal.Facts₀ Cert.KernelIdeal.Facts
open Idealize.ShloMosaic Idealize.SL.Sem
open Cert.LibClamp (clamp clamp_toNat_le)

variable {F : FTy → Type} [FloatOps F] [Cert.KernelIdeal.Facts]

theorem hi_nonneg : 0 ≤ (49999#32 : BitVec 32).toInt := by decide
theorem hi_toNat : (49999#32 : BitVec 32).toNat = 49999 := by decide

/-- Window 0's block index: the clamped token on the row axis, 0 on the other two. -/
theorem transform_0_eq (pf : pre0.Contents (Elt F)) (i : grid0.Coords) :
    ∃ w : BitVec 32, cc0_transform_0 k0_off1_inb numel1_S1 pf i = ![(clamp 49999#32 w).toNat, 0, 0] := ⟨_, rfl⟩

/-- Window 1's block index: the clamped (token − 50000) on the row axis, 0 on the other two. -/
theorem transform_1_eq (pf : pre0.Contents (Elt F)) (i : grid0.Coords) :
    ∃ w : BitVec 32, cc0_transform_1 k0_off1_inb numel1_S1 pf i = ![(clamp 49999#32 w).toNat, 0, 0] := ⟨_, rfl⟩

/-- Every table-indexed block lies inside its array, whatever the table holds. -/
theorem ok_any (pf : pre0.Contents (Elt F)) : ok0 (F := F) pf := by
  refine ⟨fun i => ⟨fun a => ?_, Or.inl rfl⟩, fun i => ⟨fun a => ?_, Or.inl rfl⟩⟩
  · obtain ⟨w, e⟩ := transform_0_eq pf i
    rw [e]
    have := clamp_toNat_le 49999#32 w hi_nonneg
    rw [hi_toNat] at this
    fin_cases a <;> simp [S1x1x300, S50000x1x300] <;> omega
  · obtain ⟨w, e⟩ := transform_1_eq pf i
    rw [e]
    have := clamp_toNat_le 49999#32 w hi_nonneg
    rw [hi_toNat] at this
    fin_cases a <;> simp [S1x1x128, S50000x1x128] <;> omega

end Cert.KernelIdeal.TableOk

end
-- ==== Proof.KernelIdealPieces.lean ====
/-
  What the body leaves in the two outputs' staging buffers at one grid point, as values.  The body makes one
  covering store per output, so each buffer reads back as that store's payload: for the first output the select
  between the fetched row of the vector table and zero on the bit "token < 50000", for the second the bias block
  plus the select between zero and the fetched row of the transposed weight table on the same bit — both of the
  token word the body loads from the table in scalar memory at the point's own position.
-/
import proofs.«412382_j64879775973480_3_alg».proof.Proof.Gen.KernelIdeal.Frame
import Idealize.ShloMosaic.Lib.Pipeline.Value

set_option maxRecDepth 16384

noncomputable section

namespace Cert.KernelIdeal.Pieces

open Cert.KernelIdeal Cert.KernelIdeal.Gen
open Idealize.ShloMosaic Idealize.ShloMosaic.TcCoe Idealize.ShloMosaic.Tactic Idealize.SL.Sem

variable {F : FTy → Type} [FloatOps F]

theorem zero_off300 : (![0, 0, 0] : Fin S1x1x300.rank → Nat) = fun _ => 0 := by funext a; fin_cases a <;> rfl
theorem zero_off128 : (![0, 0, 0] : Fin S1x1x128.rank → Nat) = fun _ => 0 := by funext a; fin_cases a <;> rfl

/-- The token word the body loads at grid coordinates `i`: the table in scalar memory read at position `i 0`. -/
def tokenWord (c : Dev nD) (i : grid0.Coords) (xt0 : TbBuf0 (F := F) c tbM0_0) : Elt F .i32 :=
  View.readAt (Elt F) tbM0_0.view (Rect.unit (s := S12800) (k0_off1 i) S1.size (k0_off1_inb i)).toLoadRect xt0
    (Shape.Idx.first (by show 0 < S1.numel; decide))

/-- Output 3's staging buffer after the body: the payload of the one store that covers it. -/
theorem out3_eq (c : Dev nD) (i : grid0.Coords) (arg2 : Memref sig .tc .vmem S1x1x300 .f32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S1x1x300 .f32) (harg5 : arg5.IsWhole) (arg6 : Memref sig .tc .vmem S1x1x128 .f32) (harg6 : arg6.IsWhole)
    (x0 : Vec F S1x1x300 .f32) (x1 : Vec F S1x1x128 .f32) (x2 : Vec F S1x1x128 .f32) (xt0 : TbBuf0 (F := F) c tbM0_0) :
    out0_A_3 c i arg2 harg2 arg3 harg3 arg4 harg4 arg5 harg5 arg6 harg6 x0 x1 x2 xt0 = k0_pay1 (tokenWord c i xt0) x0 := by
  unfold out0_A_3
  rw [View.read_writes_eq_canon _ _ _ (cover0_A_3 c i arg2 harg2 arg3 harg3 arg4 harg4 arg5 harg5 arg6 harg6 x0 x1 x2 xt0)]
  unfold kernelRun0_A
  dsimp only
  sl_unfold_words
  rw [View.canon_unit_zero zero_off300]
  simp only [View.readAt_eq_ld, harg2.read_unread, View.ld_unit_zero (S := S1x1x300) zero_off300]
  rfl

/-- Output 4's staging buffer after the body: the payload of the one store that covers it (the bias block is the
    payload's second operand, the weight-table row its third). -/
theorem out4_eq (c : Dev nD) (i : grid0.Coords) (arg2 : Memref sig .tc .vmem S1x1x300 .f32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S1x1x300 .f32) (harg5 : arg5.IsWhole) (arg6 : Memref sig .tc .vmem S1x1x128 .f32) (harg6 : arg6.IsWhole)
    (x0 : Vec F S1x1x300 .f32) (x1 : Vec F S1x1x128 .f32) (x2 : Vec F S1x1x128 .f32) (xt0 : TbBuf0 (F := F) c tbM0_0) :
    out0_A_4 c i arg2 harg2 arg3 harg3 arg4 harg4 arg5 harg5 arg6 harg6 x0 x1 x2 xt0 = k0_pay2 (tokenWord c i xt0) x2 x1 := by
  unfold out0_A_4
  rw [View.read_writes_eq_canon _ _ _ (cover0_A_4 c i arg2 harg2 arg3 harg3 arg4 harg4 arg5 harg5 arg6 harg6 x0 x1 x2 xt0)]
  unfold kernelRun0_A
  dsimp only
  sl_unfold_words
  rw [View.canon_unit_zero zero_off128]
  simp only [View.readAt_eq_ld, harg3.read_unread, harg4.read_unread, View.ld_unit_zero (S := S1x1x128) zero_off128]
  rfl

end Cert.KernelIdeal.Pieces

end
-- ==== Proof.Spec.lean ====
/-
  What one token contributes to the output, as a function of the token word and of the tables, element by element.
  A token t in [0, 50000) (signed) has a pretrained vector: its first 300 entries are row t of the vector table and
  its last 128 the bias alone.  Any other token has none: its first 300 entries are zero and its last 128 the bias
  plus column (t − 50000) of W (row t − 50000 of W transposed).  Both table rows are clamped into [0, 49999] before
  they are used, so every word names a row, whatever it is.
-/
import Idealize.ShloMosaic.PureOps
import proofs.«412382_j64879775973480_3_alg».proof.Proof.LibClamp

noncomputable section

namespace Cert.Spec

open Idealize.ShloMosaic
open Cert.LibClamp (clamp clamp_toNat_le)

variable {F : FTy → Type} [FloatOps F]

theorem hi_nonneg : 0 ≤ (49999#32 : BitVec 32).toInt := by decide
theorem hi_toNat : (49999#32 : BitVec 32).toNat = 49999 := by decide

/-- The table row a word names once clamped into [0, 49999]. -/
def row (w : BitVec 32) : Fin 50000 :=
  ⟨(clamp 49999#32 w).toNat, by have := clamp_toNat_le 49999#32 w hi_nonneg; rw [hi_toNat] at this; omega⟩

theorem row_val (w : BitVec 32) : (row w).val = (clamp 49999#32 w).toNat := rfl

/-- The bit "the token is below 50000, signed": the token has a pretrained vector. -/
def isPre (tok : BitVec 32) : BitVec 1 := IntOp.cmpi .slt tok 50000#32

/-- The float zero the kernel and the reference both write as the word 0. -/
def zero : F .f32 := Scalar.ofBits .f32 0x00000000#32

/-- Entry r of the first part of a token's output row: its vector's entry if it has one, else zero. -/
def vecPart (tok : BitVec 32) (vec : Fin 50000 → Fin 300 → F .f32) (r : Fin 300) : F .f32 :=
  Scalar.select (isPre tok) (vec (row tok) r) zero

/-- Entry r of the second part: the bias, plus zero if the token has a pretrained vector and else entry r of row
    (token − 50000) of the transposed weight table. -/
def oovPart (tok : BitVec 32) (wt : Fin 50000 → Fin 128 → F .f32) (b : Fin 128 → F .f32) (r : Fin 128) : F .f32 :=
  FloatOps.addf (b r) (Scalar.select (isPre tok) zero (wt (row (IntOp.subi tok 50000#32)) r))

/-- A select between two vectors on one bit, read at an index, is the select of the entries. -/
theorem select_fun_apply {ι α : Type} (b : BitVec 1) (f g : ι → α) (z : ι) :
    (Scalar.select b f g) z = Scalar.select b (f z) (g z) := by
  unfold Scalar.select; split <;> rfl

end Cert.Spec

end
-- ==== Proof.KernelIdealPoint.lean ====
/-
  One grid point, read as values.  Grid point i handles token number i: the word the body loads from the token
  table, and the word the two gathering index maps load, is the table's entry at position i.  With that word `tok`,
  the first payload at an index is "tok < 50000 ? fetched vector row : 0", the second is "bias + (tok < 50000 ? 0 :
  fetched weight row)", and the two index maps name block rows `row tok` and `row (tok − 50000)` (the clamped words).
-/
import proofs.«412382_j64879775973480_3_alg».proof.Proof.KernelIdealPieces
import proofs.«412382_j64879775973480_3_alg».proof.Proof.Spec
import Idealize.ShloMosaic.Lib.ValueIdx

set_option maxRecDepth 16384

noncomputable section

namespace Cert.KernelIdeal.Point

open Cert.KernelIdeal Cert.KernelIdeal.Gen Cert.KernelIdeal.Pieces
open Idealize.ShloMosaic Idealize.ShloMosaic.TcCoe Idealize.SL.Sem Idealize.ShloMosaic.ValueIdx
open Cert.Spec

variable {F : FTy → Type} [FloatOps F]

/-- The position in the token table that grid coordinates `i` name: their one coordinate. -/
def pos (i : grid0.Coords) : S12800.Idx := ix1 (⟨(i 0).val, (i 0).isLt⟩ : Fin 12800)

/-- The 32-bit word of a grid coordinate, read back as an offset, is the coordinate (it is below 12800). -/
theorem off_eq (i : grid0.Coords) : (Scalar.indexCast (BitVec.ofNat 32 (i 0).val)).toNat = (i 0).val := by
  have h : (i 0).val < 12800 := (i 0).isLt
  show (BitVec.ofNat 32 (i 0).val).toNat = (i 0).val
  rw [BitVec.toNat_ofNat]
  omega

/-- A one-element shape has the one index 0. -/
theorem first_val (h1 : 0 < S1.numel) : (Shape.Idx.first h1 (0 : Fin 1)).val = 0 := by
  have := (Shape.Idx.first h1 (0 : Fin 1)).isLt
  have e : S1.size (0 : Fin 1) = 1 := by decide
  omega

/-- The one index of the unit rectangle at the point's offset is the point's position. -/
theorem unit_off (i : grid0.Coords) (h1 : 0 < S1.numel) :
    (k0_off1 i) 0 + 1 * (Shape.Idx.first (s := S1) h1 (0 : Fin 1)).val = (i 0).val := by
  rw [first_val]
  show (Scalar.indexCast (BitVec.ofNat 32 (i 0).val)).toNat + 1 * 0 = (i 0).val
  rw [off_eq]; omega

/-- The word the body loads is the table's entry at the point's position. -/
theorem tokenWord_eq (c : Dev nD) (i : grid0.Coords) (xt0 : TbBuf0 (F := F) c tbM0_0) : tokenWord c i xt0 = xt0 (pos i) := by
  unfold tokenWord
  show xt0 _ = xt0 _
  congr 1
  funext a
  apply Fin.ext
  fin_cases a
  exact unit_off i _

/-- The word the index maps load is the same entry. -/
theorem tableAt_eq (pf : pre0.Contents (Elt F)) (i : grid0.Coords) :
    pf.at 0 (Rect.unit (s := S12800) (k0_off1 i) S1.size (k0_off1_inb i)) numel1_S1 = pf 0 (pos i) := by
  show pf 0 _ = pf 0 _
  congr 1
  funext a
  apply Fin.ext
  fin_cases a
  exact unit_off i _

/-- The first payload at an index: the fetched vector-row entry if the token is below 50000, else zero. -/
theorem pay1_apply (tok : BitVec 32) (x0 : Vec F S1x1x300 .f32) (z : S1x1x300.Idx) :
    k0_pay1 (F := F) tok x0 z = Scalar.select (isPre tok) (x0 z) zero := by
  unfold k0_pay1
  simp only [shapeCast_self]
  rw [select_fun_apply]
  rfl

/-- The second payload at an index: the bias entry plus (zero if the token is below 50000, else the fetched
    weight-row entry). -/
theorem pay2_apply (tok : BitVec 32) (xb xw : Vec F S1x1x128 .f32) (z : S1x1x128.Idx) :
    k0_pay2 (F := F) tok xb xw z = FloatOps.addf (xb z) (Scalar.select (isPre tok) zero (xw z)) := by
  unfold k0_pay2
  simp only [shapeCast_self]
  refine congrArg (FloatOps.addf (xb z)) ?_
  exact select_fun_apply _ _ _ z

/-- The vector table's block at coordinates `i`: row `row tok`, the other two block coordinates 0. -/
theorem transform_0_eq (pf : pre0.Contents (Elt F)) (i : grid0.Coords) :
    cc0_transform_0 k0_off1_inb numel1_S1 pf i = ![(row (pf 0 (pos i))).val, 0, 0] := by
  show ![(Cert.LibClamp.clamp 49999#32 (pf.at 0 (Rect.unit (s := S12800) (k0_off1 i) S1.size (k0_off1_inb i)) numel1_S1)).toNat, _, _] = ![_, _, _]
  rw [tableAt_eq]
  rfl

/-- The weight table's block at coordinates `i`: row `row (tok − 50000)`, the other two block coordinates 0. -/
theorem transform_1_eq (pf : pre0.Contents (Elt F)) (i : grid0.Coords) :
    cc0_transform_1 k0_off1_inb numel1_S1 pf i = ![(row (IntOp.subi (pf 0 (pos i)) 50000#32)).val, 0, 0] := by
  show ![(Cert.LibClamp.clamp 49999#32 (Scalar.subi (pf.at 0 (Rect.unit (s := S12800) (k0_off1 i) S1.size (k0_off1_inb i)) numel1_S1) 50000#32)).toNat, _, _] = ![_, _, _]
  rw [tableAt_eq]
  rfl

/-- On the one-axis grid the point's coordinate is the point's number. -/
theorem coord0 (t : Fin grid0.N) : (grid0.coords t 0).val = t.val := by
  have hs : grid0.stride 0 = 1 := by decide
  have hN : grid0.N = 12800 := by decide
  have := t.isLt
  show t.val / grid0.stride 0 % grid0.bound 0 = t.val
  rw [hs]
  show t.val / 1 % 12800 = t.val
  omega

end Cert.KernelIdeal.Point

end
-- ==== Proof.KernelIdealRegion.lean ====
/-
  The two output arrays after the gather kernel has run, as functions of what the region finds in memory.
  Grid point t handles token number t.  Its vector block is row `row tok` of the vector table, its weight block row
  `row (tok − 50000)` of the transposed weight table, its bias block the whole bias; it writes back, into row t of
  each output array, the token's vector part and its out-of-vocabulary part.  Every row of either array is written
  by exactly the point of that number, so after the last point row n of the first array is token n's vector part
  and row n of the second its out-of-vocabulary part.
-/
import proofs.«412382_j64879775973480_3_alg».proof.Proof.KernelIdealPoint
import Idealize.ShloMosaic.Lib.Pipeline.Value

set_option maxRecDepth 16384

noncomputable section

namespace Cert.KernelIdeal.Region

open Cert.KernelIdeal Cert.KernelIdeal.Gen Cert.KernelIdeal.Pieces Cert.KernelIdeal.Point
open Idealize.ShloMosaic Idealize.ShloMosaic.TcCoe Idealize.SL.Sem Idealize.ShloMosaic.ValueIdx
open Idealize.ShloMosaic.Pipeline (Dat)
open Cert.Spec

variable {F : FTy → Type} [FloatOps F]
variable (m : (ℓ : Loc nD τ sig) → Buf (Elt F) ℓ)

/-- The token of grid point `t`: the table's entry at the point's position. -/
def tokAt (t : Fin grid0.N) : BitVec 32 := tbl m 0 (pos (grid0.coords t))

/-- The three input blocks at a point, each under its literal type. -/
abbrev vblk (hO : Ok m) (c : Dev nD) (t : Fin (cfgM m hO).N) : Vec F S1x1x300 .f32 := iblk m hO c 0 t
abbrev wblk (hO : Ok m) (c : Dev nD) (t : Fin (cfgM m hO).N) : Vec F S1x1x128 .f32 := iblk m hO c 1 t
abbrev bblk (hO : Ok m) (c : Dev nD) (t : Fin (cfgM m hO).N) : Vec F S1x1x128 .f32 := iblk m hO c 2 t

/-! ## The input blocks, read at an index -/

set_option maxHeartbeats 400000 in
/-- The vector block at a point is row `row tok` of the vector table as the region finds it. -/
theorem vblk_apply (hO : Ok m) (c : Dev nD) (t : Fin (cfgM m hO).N) (z : S1x1x300.Idx) :
    vblk m hO c t z = V m c main_v2 (ix3 (row (tokAt m t)) (0 : Fin 1) (⟨(z 2).val, (z 2).isLt⟩ : Fin 300)) := by
  show V m c main_v2 ((((cfgM m hO).win 0).blk t).view.emb z) = _
  refine congrArg (V m c main_v2) ?_
  have hidx : ((cfgM m hO).win 0).index t = ![(row (tokAt m t)).val, 0, 0] := transform_0_eq (tbl m) (grid0.coords t)
  funext a
  apply Fin.ext
  match a with
  | ⟨0, _⟩ =>
    show ((cfgM m hO).win 0).index t (0 : Fin 3) * 1 + 1 * (z 0).val = (row (tokAt m t)).val
    have hz : (z 0).val < 1 := (z 0).isLt
    rw [hidx]; show (row (tokAt m t)).val * 1 + 1 * (z 0).val = _; omega
  | ⟨1, _⟩ =>
    show ((cfgM m hO).win 0).index t (1 : Fin 3) * 1 + 1 * (z 1).val = 0
    have hz : (z 1).val < 1 := (z 1).isLt
    rw [hidx]; show 0 * 1 + 1 * (z 1).val = _; omega
  | ⟨2, _⟩ =>
    show ((cfgM m hO).win 0).index t (2 : Fin 3) * 300 + 1 * (z 2).val = (z 2).val
    rw [hidx]; show 0 * 300 + 1 * (z 2).val = _; omega

set_option maxHeartbeats 400000 in
/-- The weight block at a point is row `row (tok − 50000)` of the transposed weight table as the region finds it. -/
theorem wblk_apply (hO : Ok m) (c : Dev nD) (t : Fin (cfgM m hO).N) (z : S1x1x128.Idx) :
    wblk m hO c t z = V m c main_v3 (ix3 (row (IntOp.subi (tokAt m t) 50000#32)) (0 : Fin 1) (⟨(z 2).val, (z 2).isLt⟩ : Fin 128)) := by
  show V m c main_v3 ((((cfgM m hO).win 1).blk t).view.emb z) = _
  refine congrArg (V m c main_v3) ?_
  have hidx : ((cfgM m hO).win 1).index t = ![(row (IntOp.subi (tokAt m t) 50000#32)).val, 0, 0] := transform_1_eq (tbl m) (grid0.coords t)
  funext a
  apply Fin.ext
  match a with
  | ⟨0, _⟩ =>
    show ((cfgM m hO).win 1).index t (0 : Fin 3) * 1 + 1 * (z 0).val = (row (IntOp.subi (tokAt m t) 50000#32)).val
    have hz : (z 0).val < 1 := (z 0).isLt
    rw [hidx]; show (row (IntOp.subi (tokAt m t) 50000#32)).val * 1 + 1 * (z 0).val = _; omega
  | ⟨1, _⟩ =>
    show ((cfgM m hO).win 1).index t (1 : Fin 3) * 1 + 1 * (z 1).val = 0
    have hz : (z 1).val < 1 := (z 1).isLt
    rw [hidx]; show 0 * 1 + 1 * (z 1).val = _; omega
  | ⟨2, _⟩ =>
    show ((cfgM m hO).win 1).index t (2 : Fin 3) * 128 + 1 * (z 2).val = (z 2).val
    rw [hidx]; show 0 * 128 + 1 * (z 2).val = _; omega

set_option maxHeartbeats 400000 in
/-- The bias block at every point is the whole bias array as the region finds it. -/
theorem bblk_apply (hO : Ok m) (c : Dev nD) (t : Fin (cfgM m hO).N) (z : S1x1x128.Idx) :
    bblk m hO c t z = V m c main_v4 (ix3 (0 : Fin 1) (0 : Fin 1) (⟨(z 2).val, (z 2).isLt⟩ : Fin 128)) := by
  show V m c main_v4 ((((cfgM m hO).win 2).blk t).view.emb z) = _
  refine congrArg (V m c main_v4) ?_
  funext a
  apply Fin.ext
  match a with
  | ⟨0, _⟩ =>
    show 0 * 1 + 1 * (z 0).val = 0
    have hz : (z 0).val < 1 := (z 0).isLt
    omega
  | ⟨1, _⟩ =>
    show 0 * 1 + 1 * (z 1).val = 0
    have hz : (z 1).val < 1 := (z 1).isLt
    omega
  | ⟨2, _⟩ =>
    show 0 * 128 + 1 * (z 2).val = (z 2).val
    omega

/-! ## The two output arrays -/

/-- The tables as the region finds them, by row and column. -/
def vecTab (c : Dev nD) : Fin 50000 → Fin 300 → F .f32 := fun a r => V m c main_v2 (ix3 a (0 : Fin 1) r)
def wtTab (c : Dev nD) : Fin 50000 → Fin 128 → F .f32 := fun a r => V m c main_v3 (ix3 a (0 : Fin 1) r)
def biasTab (c : Dev nD) : Fin 128 → F .f32 := fun r => V m c main_v4 (ix3 (0 : Fin 1) (0 : Fin 1) r)

/-- What the two output arrays hold after the run: row n is token n's contribution. -/
def G3 (c : Dev nD) : S12800x1x300.Idx → Elt F .f32 := fun j =>
  vecPart (tbl m 0 (ix1 (⟨(j 0).val, (j 0).isLt⟩ : Fin 12800))) (vecTab m c) (⟨(j 2).val, (j 2).isLt⟩ : Fin 300)
def G4 (c : Dev nD) : S12800x1x128.Idx → Elt F .f32 := fun j =>
  oovPart (tbl m 0 (ix1 (⟨(j 0).val, (j 0).isLt⟩ : Fin 12800))) (wtTab m c) (biasTab m c) (⟨(j 2).val, (j 2).isLt⟩ : Fin 128)

/-- The first output array at an index of row `t`, column `r`: token `t`'s vector part. -/
theorem G3_at (c : Dev nD) (t : Fin grid0.N) (r : Fin 300) (j : S12800x1x300.Idx)
    (h0 : (j 0).val = (grid0.coords t 0).val) (h2 : (j 2).val = r.val) :
    G3 m c j = Scalar.select (isPre (tokAt m t)) (V m c main_v2 (ix3 (row (tokAt m t)) (0 : Fin 1) r)) zero := by
  unfold G3 vecPart vecTab tokAt pos
  have e0 : (⟨(j 0).val, (j 0).isLt⟩ : Fin 12800) = ⟨(grid0.coords t 0).val, (grid0.coords t 0).isLt⟩ := Fin.ext h0
  have e2 : (⟨(j 2).val, (j 2).isLt⟩ : Fin 300) = r := Fin.ext h2
  rw [e0, e2]

/-- The second output array at an index of row `t`, column `r`: token `t`'s out-of-vocabulary part. -/
theorem G4_at (c : Dev nD) (t : Fin grid0.N) (r : Fin 128) (j : S12800x1x128.Idx)
    (h0 : (j 0).val = (grid0.coords t 0).val) (h2 : (j 2).val = r.val) :
    G4 m c j = FloatOps.addf (V m c main_v4 (ix3 (0 : Fin 1) (0 : Fin 1) r))
      (Scalar.select (isPre (tokAt m t)) zero (V m c main_v3 (ix3 (row (IntOp.subi (tokAt m t) 50000#32)) (0 : Fin 1) r))) := by
  unfold G4 oovPart wtTab biasTab tokAt pos
  have e0 : (⟨(j 0).val, (j 0).isLt⟩ : Fin 12800) = ⟨(grid0.coords t 0).val, (grid0.coords t 0).isLt⟩ := Fin.ext h0
  have e2 : (⟨(j 2).val, (j 2).isLt⟩ : Fin 128) = r := Fin.ext h2
  rw [e0, e2]

/-! ## What a point leaves in the staging buffers -/

set_option maxHeartbeats 400000 in
/-- Point `t` leaves in the first output's staging buffer the first payload of its token and vector block. -/
theorem stage3_eq (hO : Ok m) (c : Dev nD) (t : Fin (cfgM m hO).N) :
    (outsAt0 m hO c t).1 = k0_pay1 (tokenWord c (grid0.coords t) (tbl m 0)) (vblk m hO c t) := by
  unfold outsAt0
  dsimp only
  exact out3_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (vblk m hO c t) (wblk m hO c t) (bblk m hO c t) (tbl m 0)

set_option maxHeartbeats 400000 in
/-- … and in the second output's the second payload of its token, bias block and weight block. -/
theorem stage4_eq (hO : Ok m) (c : Dev nD) (t : Fin (cfgM m hO).N) :
    (outsAt0 m hO c t).2 = k0_pay2 (tokenWord c (grid0.coords t) (tbl m 0)) (bblk m hO c t) (wblk m hO c t) := by
  unfold outsAt0
  dsimp only
  exact out4_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (vblk m hO c t) (wblk m hO c t) (bblk m hO c t) (tbl m 0)

set_option maxHeartbeats 400000 in
theorem stage3_apply (hO : Ok m) (c : Dev nD) (t : Fin (cfgM m hO).N) (z : S1x1x300.Idx) :
    (outsAt0 m hO c t).1 z
      = Scalar.select (isPre (tokAt m t)) (V m c main_v2 (ix3 (row (tokAt m t)) (0 : Fin 1) (⟨(z 2).val, (z 2).isLt⟩ : Fin 300))) zero := by
  have hw : tokenWord c (grid0.coords t) (tbl m 0) = tokAt m t := tokenWord_eq c (grid0.coords t) (tbl m 0)
  exact ((congrFun (stage3_eq m hO c t) z).trans (pay1_apply (tokenWord c (grid0.coords t) (tbl m 0)) (vblk m hO c t) z)).trans
    (congrArg₂ (fun w v => Scalar.select (isPre w) v (zero (F := F))) hw (vblk_apply m hO c t z))

set_option maxHeartbeats 400000 in
theorem stage4_apply (hO : Ok m) (c : Dev nD) (t : Fin (cfgM m hO).N) (z : S1x1x128.Idx) :
    (outsAt0 m hO c t).2 z
      = FloatOps.addf (V m c main_v4 (ix3 (0 : Fin 1) (0 : Fin 1) (⟨(z 2).val, (z 2).isLt⟩ : Fin 128)))
          (Scalar.select (isPre (tokAt m t)) zero
            (V m c main_v3 (ix3 (row (IntOp.subi (tokAt m t) 50000#32)) (0 : Fin 1) (⟨(z 2).val, (z 2).isLt⟩ : Fin 128)))) := by
  have hw : tokenWord c (grid0.coords t) (tbl m 0) = tokAt m t := tokenWord_eq c (grid0.coords t) (tbl m 0)
  refine ((congrFun (stage4_eq m hO c t) z).trans (pay2_apply (tokenWord c (grid0.coords t) (tbl m 0)) (bblk m hO c t) (wblk m hO c t) z)).trans ?_
  rw [hw]
  exact congrArg₂ (fun b v => FloatOps.addf b (Scalar.select (isPre (tokAt m t)) (zero (F := F)) v)) (bblk_apply m hO c t z) (wblk_apply m hO c t z)

/-! ## Where an output block sits, and what a point writes back -/

set_option maxHeartbeats 400000 in
/-- An element of output block `t` of the first array sits at row `t` and its own column. -/
theorem emb3 (hO : Ok m) (t : Fin (cfgM m hO).N) (y : S1x1x300.Idx) (e : S12800x1x300.Idx)
    (he : e = (((cfgM m hO).win 3).blk t).view.emb y) :
    (e 0).val = (grid0.coords t 0).val ∧ (e 2).val = (y 2).val := by
  subst he
  constructor
  · show ((cfgM m hO).win 3).index t (0 : Fin 3) * 1 + 1 * (y 0).val = (grid0.coords t 0).val
    have hy : (y 0).val < 1 := (y 0).isLt
    have hi : ((cfgM m hO).win 3).index t (0 : Fin 3) = (grid0.coords t 0).val := off_eq (grid0.coords t)
    rw [hi]; omega
  · show ((cfgM m hO).win 3).index t (2 : Fin 3) * 300 + 1 * (y 2).val = (y 2).val
    have hi : ((cfgM m hO).win 3).index t (2 : Fin 3) = 0 := rfl
    rw [hi]; omega

set_option maxHeartbeats 400000 in
/-- The same for the second array. -/
theorem emb4 (hO : Ok m) (t : Fin (cfgM m hO).N) (y : S1x1x128.Idx) (e : S12800x1x128.Idx)
    (he : e = (((cfgM m hO).win 4).blk t).view.emb y) :
    (e 0).val = (grid0.coords t 0).val ∧ (e 2).val = (y 2).val := by
  subst he
  constructor
  · show ((cfgM m hO).win 4).index t (0 : Fin 3) * 1 + 1 * (y 0).val = (grid0.coords t 0).val
    have hy : (y 0).val < 1 := (y 0).isLt
    have hi : ((cfgM m hO).win 4).index t (0 : Fin 3) = (grid0.coords t 0).val := off_eq (grid0.coords t)
    rw [hi]; omega
  · show ((cfgM m hO).win 4).index t (2 : Fin 3) * 128 + 1 * (y 2).val = (y 2).val
    have hi : ((cfgM m hO).win 4).index t (2 : Fin 3) = 0 := rfl
    rw [hi]; omega

set_option maxHeartbeats 1000000 in
/-- WHAT POINT `t` WRITES BACK to the first array is block `t` of `G3`. -/
theorem flushed3_eq (hO : Ok m) (c : Dev nD) (t : Fin (cfgM m hO).N) :
    (dats m hO 0 c).flushed 3 t = (((cfgM m hO).win 3).blk t).view.read (Elt F) (G3 m c) := by
  show ((cfgM m hO).win 3).cut ((cfgM m hO).grid.coords t) ((dats m hO 0 c).after 3 t) = _
  rw [after0_3]
  refine funext (fun (y : S1x1x300.Idx) => ?_)
  show (outsAt0 m hO c t).1 y = G3 m c ((((cfgM m hO).win 3).blk t).view.emb y)
  rw [stage3_apply]
  exact (G3_at m c t (⟨(y 2).val, (y 2).isLt⟩ : Fin 300) ((((cfgM m hO).win 3).blk t).view.emb y) (emb3 m hO t y _ rfl).1 (emb3 m hO t y _ rfl).2).symm

set_option maxHeartbeats 1000000 in
/-- WHAT POINT `t` WRITES BACK to the second array is block `t` of `G4`. -/
theorem flushed4_eq (hO : Ok m) (c : Dev nD) (t : Fin (cfgM m hO).N) :
    (dats m hO 0 c).flushed 4 t = (((cfgM m hO).win 4).blk t).view.read (Elt F) (G4 m c) := by
  show ((cfgM m hO).win 4).cut ((cfgM m hO).grid.coords t) ((dats m hO 0 c).after 4 t) = _
  rw [after0_4]
  refine funext (fun (y : S1x1x128.Idx) => ?_)
  show (outsAt0 m hO c t).2 y = G4 m c ((((cfgM m hO).win 4).blk t).view.emb y)
  rw [stage4_apply]
  exact (G4_at m c t (⟨(y 2).val, (y 2).isLt⟩ : Fin 128) ((((cfgM m hO).win 4).blk t).view.emb y) (emb4 m hO t y _ rfl).1 (emb4 m hO t y _ rfl).2).symm

/-! ## Every row of an output array is some point's block, so the arrays end at `G3` and `G4` -/

set_option maxHeartbeats 400000 in
/-- Index (n, 0, r) of the first array is element (0, 0, r) of the block of point n, which writes back. -/
theorem cover3 (hO : Ok m) (i : S12800x1x300.Idx) :
    ∃ t : Fin (cfgM m hO).N, ((cfgM m hO).win 3).flush t = true ∧ i ∈ (((cfgM m hO).win 3).blk t).view.set := by
  have hi0 : (i 0).val < 12800 := (i 0).isLt
  have hi1 : (i 1).val < 1 := (i 1).isLt
  have hi2 : (i 2).val < 300 := (i 2).isLt
  refine ⟨⟨(i 0).val, hi0⟩, flush0_3 (adm m hO) _, ?_⟩
  have h0 : ((cfgM m hO).win 3).index ⟨(i 0).val, hi0⟩ (0 : Fin 3) = (i 0).val :=
    (off_eq (grid0.coords ⟨(i 0).val, hi0⟩)).trans (coord0 ⟨(i 0).val, hi0⟩)
  have he : (((cfgM m hO).win 3).blk ⟨(i 0).val, hi0⟩).view.emb (ix3 (0 : Fin 1) (0 : Fin 1) (⟨(i 2).val, hi2⟩ : Fin 300)) = i := by
    funext a
    apply Fin.ext
    match a with
    | ⟨0, _⟩ =>
      show ((cfgM m hO).win 3).index ⟨(i 0).val, hi0⟩ (0 : Fin 3) * 1 + 1 * 0 = (i 0).val
      rw [h0]; omega
    | ⟨1, _⟩ => show 0 * 1 + 1 * 0 = (i 1).val; omega
    | ⟨2, _⟩ => show 0 * 300 + 1 * (i 2).val = (i 2).val; omega
  have hm := (((cfgM m hO).win 3).blk ⟨(i 0).val, hi0⟩).view.emb_mem_set (ix3 (0 : Fin 1) (0 : Fin 1) (⟨(i 2).val, hi2⟩ : Fin 300))
  rw [he] at hm
  exact hm

set_option maxHeartbeats 400000 in
/-- The same for the second array. -/
theorem cover4 (hO : Ok m) (i : S12800x1x128.Idx) :
    ∃ t : Fin (cfgM m hO).N, ((cfgM m hO).win 4).flush t = true ∧ i ∈ (((cfgM m hO).win 4).blk t).view.set := by
  have hi0 : (i 0).val < 12800 := (i 0).isLt
  have hi1 : (i 1).val < 1 := (i 1).isLt
  have hi2 : (i 2).val < 128 := (i 2).isLt
  refine ⟨⟨(i 0).val, hi0⟩, flush0_4 (adm m hO) _, ?_⟩
  have h0 : ((cfgM m hO).win 4).index ⟨(i 0).val, hi0⟩ (0 : Fin 3) = (i 0).val :=
    (off_eq (grid0.coords ⟨(i 0).val, hi0⟩)).trans (coord0 ⟨(i 0).val, hi0⟩)
  have he : (((cfgM m hO).win 4).blk ⟨(i 0).val, hi0⟩).view.emb (ix3 (0 : Fin 1) (0 : Fin 1) (⟨(i 2).val, hi2⟩ : Fin 128)) = i := by
    funext a
    apply Fin.ext
    match a with
    | ⟨0, _⟩ =>
      show ((cfgM m hO).win 4).index ⟨(i 0).val, hi0⟩ (0 : Fin 3) * 1 + 1 * 0 = (i 0).val
      rw [h0]; omega
    | ⟨1, _⟩ => show 0 * 1 + 1 * 0 = (i 1).val; omega
    | ⟨2, _⟩ => show 0 * 128 + 1 * (i 2).val = (i 2).val; omega
  have hm := (((cfgM m hO).win 4).blk ⟨(i 0).val, hi0⟩).view.emb_mem_set (ix3 (0 : Fin 1) (0 : Fin 1) (⟨(i 2).val, hi2⟩ : Fin 128))
  rw [he] at hm
  exact hm

/-- THE FIRST OUTPUT ARRAY after the run. -/
theorem final3 (hO : Ok m) (c : Dev nD) : (dats m hO 0 c).arrAt 3 (cfgM m hO).N = G3 m c :=
  (dats m hO 0 c).arrAt_eq_of_cover 3 (G3 m c) (fun t _ => flushed3_eq m hO c t) (cover3 m hO)

/-- THE SECOND OUTPUT ARRAY after the run. -/
theorem final4 (hO : Ok m) (c : Dev nD) : (dats m hO 0 c).arrAt 4 (cfgM m hO).N = G4 m c :=
  (dats m hO 0 c).arrAt_eq_of_cover 4 (G4 m c) (fun t _ => flushed4_eq m hO c t) (cover4 m hO)

end Cert.KernelIdeal.Region

end
-- ==== Proof.KernelIdealHost.lean ====
/-
  The gather kernel's program around its region.  Before the region the host flattens the tokens to a table of 12800
  words, transposes W, and gives the vector table, the transposed weight table and the bias a unit middle axis;
  after it, it folds the 12800 rows of each output array back into [64, 200, ·] and joins the two along the last
  axis.  So the program's result is the join of the two output arrays reshaped, each argument array ending as it
  started.
-/
import proofs.«412382_j64879775973480_3_alg».proof.Proof.KernelIdealRegion
import proofs.«412382_j64879775973480_3_alg».proof.Proof.KernelIdealOk
import Idealize.ShloMosaic.Lib.StableHlo.Run

set_option maxRecDepth 16384

noncomputable section

namespace Cert.KernelIdeal.Host

open Cert.KernelIdeal Cert.KernelIdeal.Gen Cert.KernelIdeal.Region
open Idealize.ShloMosaic Idealize.ShloMosaic.TcCoe Idealize.SL.Sem Idealize.ShloMosaic.ValueIdx Idealize.ShloMosaic.StableHlo
open Idealize.ShloMosaic.Pipeline (Dat)

variable {F : FTy → Type} [FloatOps F]
variable (m : (ℓ : Loc nD τ sig) → Buf (Elt F) ℓ) (ρ : Dev nD → PrngReg)

/-! ## What the region finds -/

/-- The token table: the token argument flattened. -/
theorem V_tokens (c : Dev nD) :
    (V m c main_v0 : S12800.Idx → BitVec 32) = shapeCast S12800 (m ((c : Thread nD τ).loc main_arg0)) shapeCasts_S64x200_S12800 := by
  show StableHlo.after hostOps0 (fun b => m (c, b)) (Proc.devRef .tc main_v0) = _
  after_results
  rfl

/-- The vector table with a unit middle axis. -/
theorem V_vectors (c : Dev nD) :
    (V m c main_v2 : S50000x1x300.Idx → Elt F .f32) = shapeCast S50000x1x300 (m ((c : Thread nD τ).loc main_arg1)) shapeCasts_S50000x300_S50000x1x300 := by
  show StableHlo.after hostOps0 (fun b => m (c, b)) (Proc.devRef .tc main_v2) = _
  after_results
  rfl

/-- W transposed, with a unit middle axis. -/
theorem V_weights (c : Dev nD) :
    (V m c main_v3 : S50000x1x128.Idx → Elt F .f32)
      = shapeCast S50000x1x128 (transpose S50000x128 [1, 0] (m ((c : Thread nD τ).loc main_arg2)) transposes_S128x50000_S50000x128_1_0) shapeCasts_S50000x128_S50000x1x128 := by
  show StableHlo.after hostOps0 (fun b => m (c, b)) (Proc.devRef .tc main_v3) = _
  after_results
  rfl

/-- The bias with two unit leading axes. -/
theorem V_bias (c : Dev nD) :
    (V m c main_v4 : S1x1x128.Idx → Elt F .f32) = shapeCast S1x1x128 (m ((c : Thread nD τ).loc main_arg3)) shapeCasts_S128_S1x1x128 := by
  show StableHlo.after hostOps0 (fun b => m (c, b)) (Proc.devRef .tc main_v4) = _
  after_results
  rfl

/-! ## The result after the region -/

/-- The program's result: the two output arrays folded back to [64, 200, ·] and joined along the last axis. -/
def joined (A : S12800x1x300.Idx → Elt F .f32) (B : S12800x1x128.Idx → Elt F .f32) : S64x200x428.Idx → Elt F .f32 :=
  concatenate S64x200x428 2 [⟨S64x200x300, shapeCast S64x200x300 A shapeCasts_S12800x1x300_S64x200x300⟩,
    ⟨S64x200x128, shapeCast S64x200x128 B shapeCasts_S12800x1x128_S64x200x128⟩] concatenates_S64x200x300_S64x200x128_S64x200x428_d2

set_option maxHeartbeats 1000000 in
theorem tail_eq (hO : Ok m) (c : Dev nD) :
    Pipeline.afterTail pcfgs (fun _ => adm m hO) (dats m hO) 0 (V0 m) [hostOps1] c main_v8 = joined (G3 m c) (G4 m c) := by
  unfold Pipeline.afterTail
  show StableHlo.after hostOps1 _ (Proc.devRef .tc main_v8) = _
  after_results
  have h3 : Pipeline.withArrays (Pipeline.pin pcfgs (fun _ => adm m hO) 0).spec c (V0 m c)
      (fun w => (dats m hO 0 c).arrAt w (Pipeline.pin pcfgs (fun _ => adm m hO) 0).N) (Proc.devRef .tc main_v5_0) = G3 m c :=
    (Pipeline.withArrays_arr spec0 (launch0 (F := F)).win.arr_inj c _ _ 3).trans (final3 m hO c)
  have h4 : Pipeline.withArrays (Pipeline.pin pcfgs (fun _ => adm m hO) 0).spec c (V0 m c)
      (fun w => (dats m hO 0 c).arrAt w (Pipeline.pin pcfgs (fun _ => adm m hO) 0).N) (Proc.devRef .tc main_v5_1) = G4 m c :=
    (Pipeline.withArrays_arr spec0 (launch0 (F := F)).win.arr_inj c _ _ 4).trans (final4 m hO c)
  exact congrArg₂ (joined (F := F)) h3 h4

/-! ## The run -/

/-- Every weakly fair execution of the kernel's program ends with its result at the join of the two output arrays
    (token n's vector part in row n of the first, its out-of-vocabulary part in row n of the second), the
    arguments unchanged. -/
theorem run (hO : Ok m) : θ_run defs (onTc (τ := τ) (main (F := F))) ⟨m, fun _ => 0, ρ⟩ (fun r => ∀ c : Dev nD,
      r.2.mem ((c.tc : Thread nD τ).loc main_v8) = joined (G3 m c) (G4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v8 (by decide : main_v8 ∈ Pipeline.restRefs sig spec0)).trans (tail_eq m hO c),
      ((h c).2 main_arg0 (by decide : main_arg0 ∈ Pipeline.restRefs sig spec0)).trans (W_main_arg0 m hO (dats m hO) c),
      ((h c).2 main_arg1 (by decide : main_arg1 ∈ Pipeline.restRefs sig spec0)).trans (W_main_arg1 m hO (dats m hO) c),
      ((h c).2 main_arg2 (by decide : main_arg2 ∈ Pipeline.restRefs sig spec0)).trans (W_main_arg2 m hO (dats m hO) c),
      ((h c).2 main_arg3 (by decide : main_arg3 ∈ Pipeline.restRefs sig spec0)).trans (W_main_arg3 m hO (dats m hO) c)⟩)
    (run_main m ρ hO)

/-! ## The region-entry arrays, element by element, in terms of the arguments -/

open Cert.Spec

/-- Entry p·200 + q of the flattened token table is token (p, q). -/
theorem tokens_at (c : Dev nD) (p : Fin 64) (q : Fin 200) (h : p.val * 200 + q.val < 12800) :
    tbl m 0 (ix1 (⟨p.val * 200 + q.val, h⟩ : Fin 12800)) = m ((c : Thread nD τ).loc main_arg0) (ix2 p q) := by
  obtain rfl : c = 0 := Subsingleton.elim _ _
  show V m 0 main_v0 _ = _
  rw [V_tokens]
  refine shapeCast_apply _ _ _ (ix2 p q) ?_
  rw [Shape.rowMajor_val_two, Shape.rowMajor_val_one]
  rfl

/-- Row a, column r of the vector table with its unit middle axis. -/
theorem vectors_at (c : Dev nD) (a : Fin 50000) (r : Fin 300) :
    V m c main_v2 (ix3 a (0 : Fin 1) r) = m ((c : Thread nD τ).loc main_arg1) (ix2 a r) := by
  rw [V_vectors]
  refine shapeCast_apply _ _ _ (ix2 a r) ?_
  rw [Shape.rowMajor_val_two, Shape.rowMajor_val_three]
  show a.val * 300 + r.val = (a.val * 1 + 0) * 300 + r.val
  omega

/-- Row a, column r of the transposed weight table is W at (r, a). -/
theorem weights_at (c : Dev nD) (a : Fin 50000) (r : Fin 128) :
    V m c main_v3 (ix3 a (0 : Fin 1) r) = m ((c : Thread nD τ).loc main_arg2) (ix2 r a) := by
  rw [V_weights]
  refine (shapeCast_apply _ _ _ (ix2 a r) ?_).trans ?_
  · rw [Shape.rowMajor_val_two, Shape.rowMajor_val_three]
    show a.val * 128 + r.val = (a.val * 1 + 0) * 128 + r.val
    omega
  · refine transpose_apply _ _ _ _ (ix2 r a) ?_
    intro b
    match b with
    | ⟨0, _⟩ => rfl
    | ⟨1, _⟩ => rfl

/-- Entry r of the bias with its two unit leading axes. -/
theorem bias_at (c : Dev nD) (r : Fin 128) :
    V m c main_v4 (ix3 (0 : Fin 1) (0 : Fin 1) r) = m ((c : Thread nD τ).loc main_arg3) (ix1 r) := by
  rw [V_bias]
  refine shapeCast_apply _ _ _ (ix1 r) ?_
  rw [Shape.rowMajor_val_one, Shape.rowMajor_val_three]
  show r.val = (0 * 1 + 0) * 128 + r.val
  omega

/-! ## The two halves of the result, element by element -/

/-- The first half at (p, q, r): the vector part of token (p, q). -/
theorem half3_at (c : Dev nD) (p : Fin 64) (q : Fin 200) (r : Fin 300) :
    shapeCast S64x200x300 (G3 m c) shapeCasts_S12800x1x300_S64x200x300 (ix3 p q r)
      = vecPart (m ((c : Thread nD τ).loc main_arg0) (ix2 p q)) (fun a r => m ((c : Thread nD τ).loc main_arg1) (ix2 a r)) r := by
  have hn : p.val * 200 + q.val < 12800 := by have := p.isLt; have := q.isLt; omega
  refine (shapeCast_apply _ _ _ (ix3 (⟨p.val * 200 + q.val, hn⟩ : Fin 12800) (0 : Fin 1) r) ?_).trans ?_
  · rw [Shape.rowMajor_val_three, Shape.rowMajor_val_three]
    show ((p.val * 200 + q.val) * 1 + 0) * 300 + r.val = (p.val * 200 + q.val) * 300 + r.val
    omega
  · show vecPart (tbl m 0 (ix1 (⟨p.val * 200 + q.val, hn⟩ : Fin 12800))) (vecTab m c) r = _
    rw [tokens_at m c p q hn]
    refine congrArg (fun T => vecPart _ T r) ?_
    funext a r'
    exact vectors_at m c a r'

/-- The second half at (p, q, r): the out-of-vocabulary part of token (p, q). -/
theorem half4_at (c : Dev nD) (p : Fin 64) (q : Fin 200) (r : Fin 128) :
    shapeCast S64x200x128 (G4 m c) shapeCasts_S12800x1x128_S64x200x128 (ix3 p q r)
      = oovPart (m ((c : Thread nD τ).loc main_arg0) (ix2 p q)) (fun a r => m ((c : Thread nD τ).loc main_arg2) (ix2 r a))
          (fun r => m ((c : Thread nD τ).loc main_arg3) (ix1 r)) r := by
  have hn : p.val * 200 + q.val < 12800 := by have := p.isLt; have := q.isLt; omega
  refine (shapeCast_apply _ _ _ (ix3 (⟨p.val * 200 + q.val, hn⟩ : Fin 12800) (0 : Fin 1) r) ?_).trans ?_
  · rw [Shape.rowMajor_val_three, Shape.rowMajor_val_three]
    show ((p.val * 200 + q.val) * 1 + 0) * 128 + r.val = (p.val * 200 + q.val) * 128 + r.val
    omega
  · show oovPart (tbl m 0 (ix1 (⟨p.val * 200 + q.val, hn⟩ : Fin 12800))) (wtTab m c) (biasTab m c) r = _
    rw [tokens_at m c p q hn]
    have hw : wtTab m c = fun a r => m ((c : Thread nD τ).loc main_arg2) (ix2 r a) := by
      funext a r'; exact weights_at m c a r'
    have hb : biasTab m c = fun r => m ((c : Thread nD τ).loc main_arg3) (ix1 r) := by
      funext r'; exact bias_at m c r'
    rw [hw, hb]

end Cert.KernelIdeal.Host

end
-- ==== Proof.LibGatherRows3.lean ====
/-
  `stablehlo.gather` of ROWS of a rank-2 table [N, D] at a rank-3 array [R, C, 1] of start indices, read at an index:
  what `x[idx]` of a table `x : [N, D]` at an integer array `idx : [R, C]` lowers to (offset_dims [2],
  collapsed_slice_dims [0], start_index_map [0], slice_sizes [1, D], index_vector_dim 2).  Result element (p, q, r)
  is the table at row `idx[p, q, 0]`, read as a SIGNED integer and clamped into [0, N − 1], and column r.
-/
import Idealize.ShloMosaic.PureOps
import Idealize.ShloMosaic.Lib.ValueIdx

noncomputable section

namespace Cert.LibGatherRows3

open Idealize.ShloMosaic Idealize.ShloMosaic.ValueIdx

variable {α : Type}

/-- Those dimension numbers for a table [N, D], start indices [R, C, 1] and result [R, C, D]. -/
abbrev rowsDims (N D R C : Nat)
    (wf : GatherDims.WF ⟨2, ![N, D]⟩ ⟨3, ![R, C, 1]⟩ ⟨3, ![R, C, D]⟩ [2] [0] [] [0] [] 2 ![1, D]) :
    GatherDims ⟨2, ![N, D]⟩ ⟨3, ![R, C, 1]⟩ ⟨3, ![R, C, D]⟩ where
  offsetDims := [2]
  collapsedSliceDims := [0]
  operandBatchingDims := []
  startIndicesBatchingDims := []
  startIndexMap := [0]
  indexVectorDim := 2
  sliceSizes := ![1, D]
  wf := wf

/-- THE GATHER READ AT (p, q, r): row `clamp idx[p, q, 0]`, column r of the table. -/
theorem gather_rows3_apply {N D R C w : Nat} (hN : 0 < N)
    (wf : GatherDims.WF ⟨2, ![N, D]⟩ ⟨3, ![R, C, 1]⟩ ⟨3, ![R, C, D]⟩ [2] [0] [] [0] [] 2 ![1, D])
    (x : (⟨2, ![N, D]⟩ : Shape).Idx → α) (idx : IVec ⟨3, ![R, C, 1]⟩ w) (p : Fin R) (q : Fin C) (r : Fin D) :
    Host.gather (rowsDims N D R C wf) x idx (ix3 p q r)
      = x (ix2 (⟨min (idx (ix3 p q (0 : Fin 1))).toInt.toNat (N - 1), by omega⟩ : Fin N) r) := by
  unfold Host.gather
  congr 1
  funext a
  refine Fin.ext ?_
  match a with
  | ⟨0, _⟩ =>
    -- the gathered axis: collapsed (offset coordinate 0), not batched, start-indexed with slice size 1
    show (rowsDims N D R C wf).start (ix3 p q r) idx 0 + (rowsDims N D R C wf).batchCoord (ix3 p q r) 0
        + (rowsDims N D R C wf).offCoord (ix3 p q r) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N D R C wf).startIndexMap from List.mem_singleton.mpr rfl)]
    have hsi : (rowsDims N D R C wf).siIdx (ix3 p q r) ⟨List.idxOf (0 : Fin 2) (rowsDims N D R C wf).startIndexMap,
        List.idxOf_lt_length_iff.2 (List.mem_singleton.mpr rfl)⟩ = ix3 p q (0 : Fin 1) := by
      funext b; refine Fin.ext ?_
      match b with
      | ⟨0, _⟩ => rfl
      | ⟨1, _⟩ => rfl
      | ⟨2, _⟩ => rfl
    rw [hsi]
    rfl
  | ⟨1, _⟩ =>
    -- the column axis: the one offset axis, neither start-indexed nor batched; its coordinate is the result's last
    show (rowsDims N D R C wf).start (ix3 p q r) idx 1 + (rowsDims N D R C wf).batchCoord (ix3 p q r) 1
        + (rowsDims N D R C wf).offCoord (ix3 p q r) 1 = r.val
    rw [GatherDims.batchCoord_eq_zero _ _ _ List.not_mem_nil]
    unfold GatherDims.start
    rw [dif_neg (show (1 : Fin 2) ∉ (rowsDims N D R C wf).startIndexMap from (by decide : (1 : Fin 2) ∉ ([0] : List (Fin 2))))]
    simp only [Nat.add_zero, Nat.zero_add]
    rfl

end Cert.LibGatherRows3

end
-- ==== Proof.RefTokens.lean ====
/-
  The reference, read at one output element.  At batch position (p, q) the reference compares the token with 50000,
  clips it into [0, 49999] (max with 0, then min with 49999), passes the clipped index through an index
  normalisation that adds 50000 to a negative index (a no-op: the clipped index is not negative), and gathers that
  row of the vector table (the gather's own clamp into [0, 49999] is a no-op too); `where` keeps the row if the token
  is below 50000 and writes zero otherwise.  The second half does the same with (token − 50000) on the transposed
  weight table, keeps zero where the token is below 50000, and adds the bias.  So the two stages that are joined
  along the last axis are, element by element, the token's vector part and its out-of-vocabulary part.
-/
import proofs.«412382_j64879775973480_3_alg».proof.Proof.RefRead
import proofs.«412382_j64879775973480_3_alg».proof.Proof.Spec
import proofs.«412382_j64879775973480_3_alg».proof.Proof.LibGatherRows3
import Idealize.ShloMosaic.Lib.ValueIdx

noncomputable section

namespace Cert.ReferenceIdeal.Tokens

open Cert.ReferenceIdeal Cert.ReferenceIdeal.ReadP
open Idealize.ShloMosaic Idealize.ShloMosaic.ValueIdx
open Cert.Spec
open Cert.LibClamp (clamp min_max_eq_clamp clamp_not_neg clamp_toInt_toNat clamp_toNat_le)
open Cert.LibGatherRows3 (rowsDims gather_rows3_apply)

variable {F : FTy → Type} [FloatOps F]

/-- The batch index of an element of a [64, 200, ·] array, through the two unit-axis broadcasts. -/
theorem batch_idx1 (p : Fin 64) (q : Fin 200) : idx_main_v9 (ix3 p q (0 : Fin 1)) = ix2 p q :=
  funext fun a => Fin.ext (by match a with | ⟨0, _⟩ => rfl | ⟨1, _⟩ => rfl)

/-- The first gather's row index at (p, q), after clipping and normalisation: the clamped token. -/
theorem rowIdx1 (tok : S64x200.Idx → BitVec 32) (p : Fin 64) (q : Fin 200) :
    val_main_v8 (F := F) tok (ix2 p q) = clamp 49999#32 (tok (ix2 p q)) := by
  simp only [val_main_v8_apply, val_main_v5_apply, val_main_v2_apply, val_main_call0_v4_apply, val_main_call0_v3_apply,
    val_main_c_1_apply, val_main_call0_v2_apply, val_main_call0_v1_apply, val_main_call0_v0_apply, val_main_c_0_apply,
    val_main_v4_apply, val_main_c_2_apply]
  rw [min_max_eq_clamp _ _ hi_nonneg, clamp_not_neg _ _ hi_nonneg, select_zero]

/-- The first gather at (p, q, r): entry r of row `row tok` of the vector table. -/
theorem gather1 (tok : S64x200.Idx → BitVec 32) (vec : S50000x300.Idx → F .f32) (p : Fin 64) (q : Fin 200) (r : Fin 300) :
    val_main_v10 (F := F) tok vec (ix3 p q r) = vec (ix2 (row (tok (ix2 p q))) r) := by
  unfold val_main_v10
  refine (gather_rows3_apply (N := 50000) (D := 300) (R := 64) (C := 200) (by decide)
    Gen.gather_S50000x300_S64x200x1_S64x200x300_2_0_n_n_0_2_1300_wf vec (val_main_v9 (F := F) tok) p q r).trans ?_
  refine congrArg vec ?_
  refine congrArg (fun a : Fin 50000 => ix2 a r) (Fin.ext ?_)
  show min (val_main_v9 (F := F) tok (ix3 p q (0 : Fin 1))).toInt.toNat (50000 - 1) = (clamp 49999#32 (tok (ix2 p q))).toNat
  rw [val_main_v9_apply, batch_idx1, rowIdx1, clamp_toInt_toNat _ _ hi_nonneg]
  have := clamp_toNat_le 49999#32 (tok (ix2 p q)) hi_nonneg
  rw [hi_toNat] at this
  omega

/-- The batch index of an element (p, q, r) through the broadcast of the comparison bit along the last axis. -/
theorem batch_idx_where1 (p : Fin 64) (q : Fin 200) (r : Fin 300) : idx_main_v3 (idx_main_call1_v1 (ix3 p q r)) = ix2 p q :=
  funext fun a => Fin.ext (by match a with | ⟨0, _⟩ => rfl | ⟨1, _⟩ => rfl)

/-- THE FIRST JOINED STAGE at (p, q, r): the token's vector part. -/
theorem ref_vecPart (tok : S64x200.Idx → BitVec 32) (vec : S50000x300.Idx → F .f32) (p : Fin 64) (q : Fin 200) (r : Fin 300) :
    val_main_v11 (F := F) tok vec (ix3 p q r) = vecPart (tok (ix2 p q)) (fun a r => vec (ix2 a r)) r := by
  rw [val_main_v11_apply, gather1]
  simp only [val_main_call1_v1_apply, val_main_v3_apply, val_main_v1_apply, val_main_v0_apply, val_main_c_apply,
    val_main_call1_v2_apply, val_main_call1_v0_apply, val_main_cst_apply, batch_idx_where1]
  rfl

/-! ## The second half: (token − 50000) on the transposed weight table, plus the bias -/

theorem batch_idx2 (p : Fin 64) (q : Fin 200) : idx_main_v22 (ix3 p q (0 : Fin 1)) = ix2 p q :=
  funext fun a => Fin.ext (by match a with | ⟨0, _⟩ => rfl | ⟨1, _⟩ => rfl)

/-- The second gather's row index at (p, q): the clamped (token − 50000). -/
theorem rowIdx2 (tok : S64x200.Idx → BitVec 32) (p : Fin 64) (q : Fin 200) :
    val_main_v21 (F := F) tok (ix2 p q) = clamp 49999#32 (IntOp.subi (tok (ix2 p q)) 50000#32) := by
  simp only [val_main_v21_apply, val_main_v18_apply, val_main_v14_apply, val_main_call2_v4_apply, val_main_call2_v3_apply,
    val_main_c_6_apply, val_main_call2_v2_apply, val_main_call2_v1_apply, val_main_call2_v0_apply, val_main_c_5_apply,
    val_main_v17_apply, val_main_c_7_apply, val_main_v13_apply, val_main_v12_apply, val_main_c_4_apply]
  rw [min_max_eq_clamp _ _ hi_nonneg, clamp_not_neg _ _ hi_nonneg, select_zero]

/-- The transposed weight table at (a, r) is W at (r, a). -/
theorem wt_apply (W : S128x50000.Idx → F .f32) (a : Fin 50000) (r : Fin 128) :
    val_main_v16 (F := F) W (ix2 a r) = W (ix2 r a) := by
  rw [val_main_v16_apply]
  refine congrArg W (funext fun k => Fin.ext ?_)
  match k with
  | ⟨0, _⟩ => rfl
  | ⟨1, _⟩ => rfl

/-- The second gather at (p, q, r): entry r of row `row (tok − 50000)` of the transposed weight table. -/
theorem gather2 (tok : S64x200.Idx → BitVec 32) (W : S128x50000.Idx → F .f32) (p : Fin 64) (q : Fin 200) (r : Fin 128) :
    val_main_v23 (F := F) tok W (ix3 p q r) = W (ix2 r (row (IntOp.subi (tok (ix2 p q)) 50000#32))) := by
  unfold val_main_v23
  refine (gather_rows3_apply (N := 50000) (D := 128) (R := 64) (C := 200) (by decide)
    Gen.gather_S50000x128_S64x200x1_S64x200x128_2_0_n_n_0_2_1128_wf (val_main_v16 (F := F) W) (val_main_v22 (F := F) tok) p q r).trans ?_
  refine Eq.trans ?_ (wt_apply W (row (IntOp.subi (tok (ix2 p q)) 50000#32)) r)
  refine congrArg (val_main_v16 (F := F) W) ?_
  refine congrArg (fun a : Fin 50000 => ix2 a r) (Fin.ext ?_)
  show min (val_main_v22 (F := F) tok (ix3 p q (0 : Fin 1))).toInt.toNat (50000 - 1) = (clamp 49999#32 (IntOp.subi (tok (ix2 p q)) 50000#32)).toNat
  rw [val_main_v22_apply, batch_idx2, rowIdx2, clamp_toInt_toNat _ _ hi_nonneg]
  have := clamp_toNat_le 49999#32 (IntOp.subi (tok (ix2 p q)) 50000#32) hi_nonneg
  rw [hi_toNat] at this
  omega

theorem batch_idx_where2 (p : Fin 64) (q : Fin 200) (r : Fin 128) : idx_main_v15 (idx_main_call3_v1 (ix3 p q r)) = ix2 p q :=
  funext fun a => Fin.ext (by match a with | ⟨0, _⟩ => rfl | ⟨1, _⟩ => rfl)

/-- The bias broadcast over the batch, at (p, q, r): entry r of the bias. -/
theorem bias_idx (p : Fin 64) (q : Fin 200) (r : Fin 128) : idx_main_v25 (idx_main_v26 (ix3 p q r)) = ix1 r :=
  funext fun a => Fin.ext (by match a with | ⟨0, _⟩ => rfl)

/-- THE SECOND JOINED STAGE at (p, q, r): the token's out-of-vocabulary part. -/
theorem ref_oovPart (tok : S64x200.Idx → BitVec 32) (W : S128x50000.Idx → F .f32) (b : S128.Idx → F .f32)
    (p : Fin 64) (q : Fin 200) (r : Fin 128) :
    val_main_v27 (F := F) tok W b (ix3 p q r)
      = oovPart (tok (ix2 p q)) (fun a r => W (ix2 r a)) (fun r => b (ix1 r)) r := by
  rw [val_main_v27_apply, val_main_v24_apply, gather2]
  simp only [val_main_v26_apply, val_main_v25_apply, bias_idx,
    val_main_call3_v1_apply, val_main_v15_apply, val_main_v1_apply, val_main_v0_apply, val_main_c_apply,
    val_main_call3_v2_apply, val_main_call3_v0_apply, val_main_cst_9_apply, batch_idx_where2]
  rfl

end Cert.ReferenceIdeal.Tokens

end
-- ==== Proof.Bridge.lean ====
/-
  The two programs' results are one array.  The reference ends with the join, along the last axis, of its two `where`
  stages; the kernel's program with the join of its two output arrays folded back to [64, 200, ·].  Element (p, q, r)
  of the first pieces is the vector part of token (p, q) on both sides, element (p, q, r) of the second pieces its
  out-of-vocabulary part, so the pieces are equal, and so are the joins.
-/
import proofs.«412382_j64879775973480_3_alg».proof.Proof.KernelIdealHost
import proofs.«412382_j64879775973480_3_alg».proof.Proof.RefTokens

set_option maxRecDepth 16384

noncomputable section

namespace Cert.Bridge

open Idealize.ShloMosaic Idealize.ShloMosaic.TcCoe Idealize.SL.Sem Idealize.ShloMosaic.ValueIdx

variable {F : FTy → Type} [FloatOps F]
variable (m : (ℓ : Loc Cert.KernelIdeal.nD Cert.KernelIdeal.τ Cert.KernelIdeal.sig) → Buf (Elt F) ℓ)

/-- The reference's first `where` stage, of the kernel program's arguments, is the kernel's first output array folded back. -/
theorem first_half (c : Dev Cert.KernelIdeal.nD) :
    Cert.ReferenceIdeal.ReadP.val_main_v11 (F := F)
        (m ((c : Thread Cert.KernelIdeal.nD Cert.KernelIdeal.τ).loc Cert.KernelIdeal.main_arg0))
        (m ((c : Thread Cert.KernelIdeal.nD Cert.KernelIdeal.τ).loc Cert.KernelIdeal.main_arg1))
      = shapeCast Cert.KernelIdeal.S64x200x300 (Cert.KernelIdeal.Region.G3 m c) Cert.KernelIdeal.Gen.shapeCasts_S12800x1x300_S64x200x300 := by
  funext i
  rw [eq_ix3 i]
  exact (Cert.ReferenceIdeal.Tokens.ref_vecPart _ _ _ _ _).trans (Cert.KernelIdeal.Host.half3_at m c _ _ _).symm

/-- The reference's bias-plus-`where` stage is the kernel's second output array folded back. -/
theorem second_half (c : Dev Cert.KernelIdeal.nD) :
    Cert.ReferenceIdeal.ReadP.val_main_v27 (F := F)
        (m ((c : Thread Cert.KernelIdeal.nD Cert.KernelIdeal.τ).loc Cert.KernelIdeal.main_arg0))
        (m ((c : Thread Cert.KernelIdeal.nD Cert.KernelIdeal.τ).loc Cert.KernelIdeal.main_arg2))
        (m ((c : Thread Cert.KernelIdeal.nD Cert.KernelIdeal.τ).loc Cert.KernelIdeal.main_arg3))
      = shapeCast Cert.KernelIdeal.S64x200x128 (Cert.KernelIdeal.Region.G4 m c) Cert.KernelIdeal.Gen.shapeCasts_S12800x1x128_S64x200x128 := by
  funext i
  rw [eq_ix3 i]
  exact (Cert.ReferenceIdeal.Tokens.ref_oovPart _ _ _ _ _ _).trans (Cert.KernelIdeal.Host.half4_at m c _ _ _).symm

/-- THE RESULTS AGREE: the reference's last stage, of the kernel program's arguments, is the kernel program's result. -/
theorem result_eq (c : Dev Cert.KernelIdeal.nD) :
    Cert.ReferenceIdeal.ReadP.val_main_v28 (F := F)
        (m ((c : Thread Cert.KernelIdeal.nD Cert.KernelIdeal.τ).loc Cert.KernelIdeal.main_arg0))
        (m ((c : Thread Cert.KernelIdeal.nD Cert.KernelIdeal.τ).loc Cert.KernelIdeal.main_arg1))
        (m ((c : Thread Cert.KernelIdeal.nD Cert.KernelIdeal.τ).loc Cert.KernelIdeal.main_arg2))
        (m ((c : Thread Cert.KernelIdeal.nD Cert.KernelIdeal.τ).loc Cert.KernelIdeal.main_arg3))
      = Cert.KernelIdeal.Host.joined (Cert.KernelIdeal.Region.G3 m c) (Cert.KernelIdeal.Region.G4 m c) := by
  unfold Cert.ReferenceIdeal.ReadP.val_main_v28 Cert.KernelIdeal.Host.joined
  rw [first_half m c, second_half m c]

end Cert.Bridge

end
-- ==== Proof.lean ====
/-
  Token embedding by gather, against its jnp reference, over the extended reals.

  The claim.  For tokens : i32[64, 200], a vector table [50000, 300], W : [128, 50000] and a bias [128], both programs
  produce out : [64, 200, 428] with, for the token t at (p, q),
    out[p, q, 0 .. 299]   = (t < 50000 ? vectors[clamp t] : 0)
    out[p, q, 300 .. 427] = b + (t < 50000 ? 0 : W[:, clamp (t − 50000)]),      clamp x = max (min x 49999) 0, signed.
  The kernel runs one grid point per token: its index maps clamp the token and fetch the one row of each table, the body
  selects and adds, and the host folds the 12800 rows back to [64, 200, ·] and joins the two halves.  The reference clips
  (max first, then min), normalises a possibly negative index (never negative here), gathers (its own clamp changes
  nothing), applies `where` and adds the bias.  The same operations meet the same operands in the same order on both
  sides, so no law of arithmetic is needed and the precondition (finite inputs) is never opened.

  The frames.  The kernel's generated frame asks that every table-indexed block lie inside its array; the clamps give
  that for every contents of the token table (Proof/KernelOk.lean, Proof/KernelIdealOk.lean).  The reference's frame is
  its run with the result dropped.
-/
import proofs.«412382_j64879775973480_3_alg».proof.Defs
import proofs.«412382_j64879775973480_3_alg».proof.Proof.Gen.Kernel
import proofs.«412382_j64879775973480_3_alg».proof.Proof.Gen.Kernel.Skeleton
import proofs.«412382_j64879775973480_3_alg».proof.Proof.Gen.Kernel.Launch
import proofs.«412382_j64879775973480_3_alg».proof.Proof.Gen.Kernel.Points
import proofs.«412382_j64879775973480_3_alg».proof.Proof.Gen.Kernel.Frame
import proofs.«412382_j64879775973480_3_alg».proof.Proof.Gen.KernelIdeal
import proofs.«412382_j64879775973480_3_alg».proof.Proof.Gen.KernelIdeal.Skeleton
import proofs.«412382_j64879775973480_3_alg».proof.Proof.Gen.KernelIdeal.Launch
import proofs.«412382_j64879775973480_3_alg».proof.Proof.Gen.KernelIdeal.Points
import proofs.«412382_j64879775973480_3_alg».proof.Proof.Gen.KernelIdeal.Frame
import proofs.«412382_j64879775973480_3_alg».proof.Proof.Gen.ReferenceIdeal
import proofs.«412382_j64879775973480_3_alg».proof.Proof.Gen.Pre_finite_inputs
import proofs.«412382_j64879775973480_3_alg».proof.Proof.KernelOk
import proofs.«412382_j64879775973480_3_alg».proof.Proof.KernelIdealOk
import proofs.«412382_j64879775973480_3_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and keeps its arguments: its generated frame, at the table side condition the clamps give. -/
theorem frame_k : Cert.frame_Kernel := fun m ρ _ =>
  Cert.Kernel.Gen.frame m ρ (Cert.Kernel.TableOk.ok_any (Cert.Kernel.Gen.tbl m))

/-- The same for the idealized kernel. -/
theorem frame_ki : Cert.frame_KernelIdeal := fun m ρ _ =>
  Cert.KernelIdeal.Gen.frame m ρ (Cert.KernelIdeal.TableOk.ok_any (Cert.KernelIdeal.Gen.tbl m))

/-- The reference runs and keeps its arguments: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote nothing: the idealization is the kernel's own text read over the extended reals. -/
theorem preserves : Cert.preserves_Kernel_KernelIdeal := trivial

/-- Both programs end, from memories agreeing on the arguments, at the join of the tokens' vector parts and
    out-of-vocabulary parts. -/
theorem algebraic : Cert.algebraic_KernelIdeal_ReferenceIdeal := by
  intro m ρ m' ρ' _ hagree
  refine ⟨fun c => Cert.KernelIdeal.Host.joined (Cert.KernelIdeal.Region.G3 m c) (Cert.KernelIdeal.Region.G4 m c),
    Cert.KernelIdeal.Host.run (F := Ideal) m ρ (Cert.KernelIdeal.TableOk.ok_any (Cert.KernelIdeal.Gen.tbl m)), ?_⟩
  refine (θ_run Cert.ReferenceIdeal.defs _ _).mono (fun _ h c => ⟨(h c).1.trans ?_, (h c).2⟩)
    (Cert.ReferenceIdeal.ValueP.run (F := Ideal) m' ρ')
  rw [(hagree c).1, (hagree c).2.1, (hagree c).2.2.1, (hagree c).2.2.2]
  exact (Cert.ReferenceIdeal.ReadP.val_main_v28_eq _ _ _ _).trans (Cert.Bridge.result_eq m c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
